-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x3 : Shape := ⟨3, ![2048, 8, 3]⟩
abbrev S_ : Shape := ⟨0, ![]⟩

class Facts : Prop where
  bcast_S_S2048x8x3 : S_.BroadcastsInDim S2048x8x3 (![] : Fin 0 → Fin S2048x8x3.rank)
  reducesTo_S2048x8x3_S_d0_1_2 : S2048x8x3.ReducesTo [0, 1, 2] S_
  h_S_ : 0 < S_.numel

variable [Facts]

def fn {F : FTy → Type} [FloatOps F] (main_arg0 : FVec F S2048x8x3 .f32) (main_arg1 : FVec F S2048x8x3 .f32) : IVec S_ 1 :=
  let main_v0 : FVec F S2048x8x3 .f32 := Host.absf main_arg0
  let main_cst : FVec F S_ .f32 := constant S_ .f32 0x7F800000#32
  let main_v1 : FVec F S2048x8x3 .f32 := broadcastInDim S2048x8x3 ![] bcast_S_S2048x8x3 main_cst
  let main_v2 : IVec S2048x8x3 1 := cmpf .olt main_v0 main_v1
  let main_c : IVec S_ 1 := constantI S_ 1 1#1
  let main_v3 : IVec S_ 1 := (fun x v => Host.reduce IntOp.andi x v reducesTo_S2048x8x3_S_d0_1_2 h_S_) main_v2 main_c
  let main_v4 : FVec F S2048x8x3 .f32 := Host.absf main_arg1
  let main_cst_0 : FVec F S_ .f32 := constant S_ .f32 0x7F800000#32
  let main_v5 : FVec F S2048x8x3 .f32 := broadcastInDim S2048x8x3 ![] bcast_S_S2048x8x3 main_cst_0
  let main_v6 : IVec S2048x8x3 1 := cmpf .olt main_v4 main_v5
  let main_c_1 : IVec S_ 1 := constantI S_ 1 1#1
  let main_v7 : IVec S_ 1 := (fun x v => Host.reduce IntOp.andi x v reducesTo_S2048x8x3_S_d0_1_2 h_S_) main_v6 main_c_1
  let main_v8 : IVec S_ 1 := andi main_v3 main_v7
  main_v8
-- ==== Kernel.lean ====
abbrev S2048x8x3 : Shape := ⟨3, ![2048, 8, 3]⟩
abbrev S16384x3 : Shape := ⟨2, ![16384, 3]⟩
abbrev S16384x1 : Shape := ⟨2, ![16384, 1]⟩
abbrev S1024x3 : Shape := ⟨2, ![1024, 3]⟩
abbrev S1024x1 : Shape := ⟨2, ![1024, 1]⟩
abbrev S1024 : Shape := ⟨1, ![1024]⟩
abbrev S1x1024 : Shape := ⟨2, ![1, 1024]⟩
abbrev S1024x1024 : Shape := ⟨2, ![1024, 1024]⟩
abbrev S2048x8 : Shape := ⟨2, ![2048, 8]⟩
abbrev S_ : Shape := ⟨0, ![]⟩
abbrev S2048 : Shape := ⟨1, ![2048]⟩

abbrev nBuf : Space → Nat
  | .hbm => 27
  | .vmem => 12
  | .smem => 0
  | _ => 0

abbrev bufTy : (tb : Table) → Fin (tcTables nBuf tb) → BufTy
  | .hbm, ⟨0, _⟩ => ⟨S2048x8x3, .f32⟩
  | .hbm, ⟨1, _⟩ => ⟨S2048x8x3, .f32⟩
  | .hbm, ⟨2, _⟩ => ⟨S16384x3, .f32⟩
  | .hbm, ⟨3, _⟩ => ⟨S16384x3, .f32⟩
  | .hbm, ⟨4, _⟩ => ⟨S16384x1, .f32⟩
  | .hbm, ⟨5, _⟩ => ⟨S16384x1, .f32⟩
  | .hbm, ⟨6, _⟩ => ⟨S2048x8, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x8, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1024x3, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | .local _ .vmem, ⟨10, _⟩ => ⟨S1024x1, .f32⟩
  | .local _ .vmem, ⟨11, _⟩ => ⟨S1024x1, .f32⟩
  | _, _ => ⟨S2048x8x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_8 : BitVec 32 := 0#32
  let v27 : BitVec 1 := Scalar.cmpi .ne v26 c0_i32_8
  v27

def k0_cond2 (i : grid0.Coords) : BitVec 1 :=
  let arg1 : BitVec 32 := BitVec.ofNat 32 (i 1).val
  let c0_i32_9 : BitVec 32 := 0#32
  let v28 : BitVec 1 := Scalar.cmpi .ne arg1 c0_i32_9
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond1 (i : grid1.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_8 : BitVec 32 := 0#32
  let v27 : BitVec 1 := Scalar.cmpi .ne v26 c0_i32_8
  v27

def k1_cond2 (i : grid1.Coords) : BitVec 1 :=
  let arg1 : BitVec 32 := BitVec.ofNat 32 (i 1).val
  let c0_i32_9 : BitVec 32 := 0#32
  let v28 : BitVec 1 := Scalar.cmpi .ne arg1 c0_i32_9
  let v29 : BitVec 32 := Scalar.extui v28
  let c0_i32_10 : BitVec 32 := 0#32
  let v30 : BitVec 1 := Scalar.cmpi .ne v29 c0_i32_10
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2048x8x3_S16384x3 : S2048x8x3.ShapeCasts S16384x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  reduces_S1024x3_S1024 : S1024x3.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S16384x1_S2048x8 : S16384x1.ShapeCasts S2048x8
  reducesTo_S2048x8_S2048_d1 : S2048x8.ReducesTo [1] S2048
  h_S_ : 0 < S_.numel
  bcast_S_S2048 : S_.BroadcastsInDim S2048 (![] : Fin 0 → Fin S2048.rank)
  reducesTo_S2048_S_d0 : S2048.ReducesTo [0] S_
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S16384x3.size a
  hwx1_1 : ∀ i : grid1.Coords, EltTy.bits .f32 = 32 ∨ (Rect.block (s := S16384x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S2048x8x3 : Shape := ⟨3, ![2048, 8, 3]⟩
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2048x8 : Shape := ⟨2, ![2048, 8]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x8x3, .f32⟩
  | .hbm, ⟨1, _⟩ => ⟨S2048x8x3, .f32⟩
  | .hbm, ⟨2, _⟩ => ⟨S16384x3, .f32⟩
  | .hbm, ⟨3, _⟩ => ⟨S16384x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S2048x8, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S16384, .f32⟩
  | .hbm, ⟨34, _⟩ => ⟨S2048x8, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S2048x8x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  shapeCasts_S2048x8x3_S16384x3 : S2048x8x3.ShapeCasts S16384x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  shapeCasts_S16384_S2048x8 : S16384.ShapeCasts S2048x8
  reducesTo_S2048x8_S2048_d1 : S2048x8.ReducesTo [1] S2048
  bcast_S_S2048 : S_.BroadcastsInDim S2048 (![] : Fin 0 → Fin S2048.rank)
  reducesTo_S16384x16384_S16384_d0 : S16384x16384.ReducesTo [0] S16384
  reducesTo_S2048_S_d0 : S2048.ReducesTo [0] S_
  dot_S16384x3_S16384x3_S16384x16384_1_1_0_0_n_n_wf : DotDims.WF S16384x3 S16384x3 S16384x16384 [1] [1] [0] [0] [] []

variable [Facts₀]

def dot_S16384x3_S16384x3_S16384x16384_1_1_0_0_n_n : DotDims S16384x3 S16384x3 S16384x16384 where
  lhsContracting := [1]
  rhsContracting := [1]
  lhsNonContracting := [0]
  rhsNonContracting := [0]
  lhsBatch := []
  rhsBatch := []
  wf := dot_S16384x3_S16384x3_S16384x16384_1_1_0_0_n_n_wf

class Facts : Prop extends Facts₀ where

variable [Facts]
-- ==== Proof.BitsCall0Grid.lean ====
/-
  One call of the row-minimum kernel on its 16 × 16 grid, point by point.

  At grid point (i, j) the body is handed block i of the first operand, block j of the second and the column block i of
  the result. Where j = 0 it stores this tile's column of least distances over whatever the column held; where j ≠ 0 it
  reads the column back and stores the smaller, entry by entry, of what was held and this tile's. The column block is
  written back to the result only after j = 15, so between j = 0 and j = 15 its staging buffer carries the running
  least value: what it holds after a point is defined by recursion on the point, restarting at every j = 0.
  Stated for any region-entry contents `V` and any float instance.
-/
import proofs.«111008_j70153995813078_1_alg».proof.Proof.Gen.Kernel.Launch
import proofs.«111008_j70153995813078_1_alg».proof.Proof.Gen.Kernel.Skeleton
import proofs.«111008_j70153995813078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point, fetched there or not (its block index moves
    only with i, and then it is fetched). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's likewise (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid point -/

/-- "j = 0" holds exactly at the points divisible by 16 (points are numbered 16 i + j). -/
theorem hfirst0 : ∀ t : Fin cfg0.N, k0_cond1 (grid0.coords t) = 1#1 ↔ t.val % 16 = 0 :=
  (by decide +kernel : ∀ t : Fin grid0.N, k0_cond1 (grid0.coords t) = 1#1 ↔ t.val % 16 = 0)
/-- "j ≠ 0" holds exactly at the others. -/
theorem hlater0 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two holds at every grid point, so the result window is stored at every point. -/
theorem live0_2 (i : grid0.Coords) : cfg0.idle 2 i = false :=
  (by decide : ∀ j : Fin 16,
    (!(Scalar.cmpi .ne (Scalar.extui (Scalar.cmpi .eq (BitVec.ofNat 32 j.val) 0#32) : BitVec 32) 0#32 == 1#1)
      && !(Scalar.cmpi .ne (Scalar.extui (Scalar.cmpi .ne (BitVec.ofNat 32 j.val) 0#32) : BitVec 32) 0#32 == 1#1)) = false) (i 1)

/-! ## The body on any staging memrefs -/

/-- One staging buffer of the result window, through which its contents are stated (the choice does not matter). -/
abbrev VO0_2 : View sig .tc .vmem S1024x1 .f32 := (Memref.whole cc0_stg2_0 : Memref sig .tc .vmem S1024x1 .f32).view
/-- Each window's current staging memref at point `t`, and its wholeness. -/
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)

end Region

end Cert.Kernel.Rows

end
-- ==== Proof.BitsCall0First.lean ====
/-
  The row-minimum kernel's body at a grid point with j = 0, run on any whole staging memrefs: the two operand blocks
  are read, the result column's buffer (holding anything) is read once and then stored whole with this tile's column.
  The list of stores the buffer ends with is found by the run itself.
-/
import proofs.«111008_j70153995813078_1_alg».proof.Proof.BitsCall0Grid

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j = 0: from the operands' memrefs at contents `x0`, `x1` and the result's at anything, the body runs
    to the continuation with the operands' as they were and the result's buffer with the found stores written. -/
noncomputable def kernelRun0_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k0_cond1 i = 1#1) (hc1 : ¬ k0_cond2 i = 1#1)
    (x0 : Vec F S1024x3 .f32) (x1 : Vec F S1024x3 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__rowmin_kernel i arg2 harg2 arg3 harg3 arg4 harg4) K } := by
  refine ⟨?_, fun E K => ?run⟩
  case run =>
    simp only [cc0__rowmin_kernel_eq_skeleton]; unfold cc0__rowmin_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Rows

end
-- ==== Proof.BitsCall0Later.lean ====
/-
  The row-minimum kernel's body at a grid point with j ≠ 0, run on any whole staging memrefs: the two operand blocks
  are read, the result column's buffer (holding the running least values `xo`) is read back and stored whole with the
  smaller, entry by entry, of what it held and this tile's column. The list of stores is found by the run itself.
-/
import proofs.«111008_j70153995813078_1_alg».proof.Proof.BitsCall0First

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j ≠ 0: from the operands' memrefs at contents `x0`, `x1` and the result's at `xo`, the body runs to
    the continuation with the operands' as they were and the result's buffer with the found stores written. -/
noncomputable def kernelRun0_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k0_cond1 i = 1#1) (hc1 : k0_cond2 i = 1#1)
    (x0 : Vec F S1024x3 .f32) (x1 : Vec F S1024x3 .f32) (xo : Vec F S1024x1 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__rowmin_kernel i arg2 harg2 arg3 harg3 arg4 harg4) K } := by
  refine ⟨?_, fun E K => ?run⟩
  case run =>
    simp only [cc0__rowmin_kernel_eq_skeleton]; unfold cc0__rowmin_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Rows

end
-- ==== Proof.BitsCall0.lean ====
/-
  One call of the row-minimum kernel: what the result column's staging buffer holds after each grid point, the call's
  proof data, and the body's obligation at every point.

  After a point with j = 0 the buffer holds that tile's stores; after a point with j ≠ 0 it holds that tile's stores
  over what the point before left (the buffer is not written back between: write-back happens only after j = 15, and
  the next point then has j = 0). The two operand windows are only read, so their buffers hold their blocks throughout.
-/
import proofs.«111008_j70153995813078_1_alg».proof.Proof.BitsCall0Later

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The stores of a point with j = 0 tile the result's block, so they cover it. -/
theorem cover0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k0_cond1 i = 1#1) (hc1 : ¬ k0_cond2 i = 1#1)
    (x0 : Vec F S1024x3 .f32) (x1 : Vec F S1024x3 .f32) (y : S1024x1.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1024x1.size (by sl_kernel_rfl) y

/-- What a point with j = 0 leaves in the result's staging buffer: its stores read back. -/
def out0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k0_cond1 i = 1#1) (hc1 : ¬ k0_cond2 i = 1#1)
    (x0 : Vec F S1024x3 .f32) (x1 : Vec F S1024x3 .f32) : Vec F S1024x1 .f32 :=
  VO0_2.read (Elt F) (VO0_2.writes (Elt F) VO0_2.junk (kernelRun0_A c i arg2 harg2 arg3 harg3 arg4 harg4 hc0 hc1 x0 x1).1)

/-- The stores of a point with j ≠ 0 tile the result's block, so they cover it. -/
theorem cover0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k0_cond1 i = 1#1) (hc1 : k0_cond2 i = 1#1)
    (x0 : Vec F S1024x3 .f32) (x1 : Vec F S1024x3 .f32) (xo : Vec F S1024x1 .f32) (y : S1024x1.Idx) :
    ∃ pc ∈ (kernelRun0_B c i arg2 harg2 arg3 harg3 arg4 harg4 hc0 hc1 x0 x1 xo).1, y ∈ pc.1.set :=
  View.cover_of_tiledL (kernelRun0_B c i arg2 harg2 arg3 harg3 arg4 harg4 hc0 hc1 x0 x1 xo).1 S1024x1.size (by sl_kernel_rfl) y

/-- What a point with j ≠ 0 leaves in the result's staging buffer: its stores read back. -/
def out0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k0_cond1 i = 1#1) (hc1 : k0_cond2 i = 1#1)
    (x0 : Vec F S1024x3 .f32) (x1 : Vec F S1024x3 .f32) (xo : Vec F S1024x1 .f32) : Vec F S1024x1 .f32 :=
  VO0_2.read (Elt F) (VO0_2.writes (Elt F) VO0_2.junk (kernelRun0_B c i arg2 harg2 arg3 harg3 arg4 harg4 hc0 hc1 x0 x1 xo).1)

/-! ## What the result's staging buffer holds after each point -/

/-- The running column. After point `n`: at j = 0 that tile's stores; at j ≠ 0 that tile's stores over what point `n - 1`
    left. -/
def outsAt0 (c : Dev nD) : (n : ℕ) → n < cfg0.N → Vec F S1024x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hfirst0 ⟨0, hn⟩).mpr (Nat.zero_mod _)) (fun h => (hlater0 ⟨0, hn⟩).mp h (Nat.zero_mod _)) (iblk0 V c 0 ⟨0, hn⟩) (iblk0 V c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hfirst0 ⟨n + 1, hn⟩).mpr h0) (fun h => (hlater0 ⟨n + 1, hn⟩).mp h h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hfirst0 ⟨n + 1, hn⟩).mp h)) ((hlater0 ⟨n + 1, hn⟩).mpr h0) (iblk0 V c 0 ⟨n + 1, hn⟩) (iblk0 V c 1 ⟨n + 1, hn⟩) (outsAt0 c n (Nat.lt_of_succ_lt hn))

/-- The running column at a point with j = 0. -/
theorem outsAt0_A (c : Dev nD) (t : Fin cfg0.N) (h0 : t.val % 16 = 0) :
    outsAt0 V c t.val t.isLt = out0_A_2 c (grid0.coords t) (ms0_0 t) (hs0_0 t) (ms0_1 t) (hs0_1 t) (ms0_2 t) (hs0_2 t)
      ((hfirst0 t).mpr h0) (fun h => (hlater0 t).mp h h0) (iblk0 V c 0 t) (iblk0 V c 1 t) := by
  obtain ⟨n, hn⟩ := t
  cases n with
  | zero => exact rfl
  | succ n => exact (dif_pos h0).trans rfl

/-- The running column at a point with j ≠ 0: over what the point before left. -/
theorem outsAt0_B (c : Dev nD) (t : Fin cfg0.N) (h0 : ¬t.val % 16 = 0) :
    outsAt0 V c t.val t.isLt = out0_B_2 c (grid0.coords t) (ms0_0 t) (hs0_0 t) (ms0_1 t) (hs0_1 t) (ms0_2 t) (hs0_2 t)
      (fun h => h0 ((hfirst0 t).mp h)) ((hlater0 t).mpr h0) (iblk0 V c 0 t) (iblk0 V c 1 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The arrays as the call finds them; after the body at point `t` each operand's buffer at its block and the result's
    at the running column; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point with j ≠ 0 the result's staging buffer holds what the body left at the point before: the point is not
    the first, and the buffer was not written back between (that happens only after j = 15). -/
theorem before0_2_B (c : Dev nD) (t : Fin cfg0.N) (h0 : ¬t.val % 16 = 0) (d) :
    (dat0 V c).before 2 t d = (outsAt0 V c (t.val - 1) (Nat.lt_of_le_of_lt (Nat.sub_le _ _) t.isLt)) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (live0_2) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the operands' memrefs hold their blocks; the point has j = 0 or j ≠ 0, and in the second case
    the result's buffer holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hfirst0 t).mpr h0) (fun h => (hlater0 t).mp h h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hfirst0 t).mp h)) ((hlater0 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The result window is stored at every point. -/
theorem stored0_2 (t : Fin cfg0.N) : cfg0.idle 2 (cfg0.grid.coords t) = false := live0_2 _

/-- The body obligation, at every point. -/
theorem body_obligation0 (c : Dev nD) : BodyObligation (dat0 (F := F) V c) (defs₀ (F := F)) Variants.none () Set.univ := fun t => by
  rw [bigSep_W0, bigSep_W0]
  rw [stored0_2 t]
  exact sound_body0 V c t

end Region

end Cert.Kernel.Rows

end
-- ==== Proof.BitsCall1Grid.lean ====
/-
  One call of the row-minimum kernel on its 16 × 16 grid, point by point.

  At grid point (i, j) the body is handed block i of the first operand, block j of the second and the column block i of
  the result. Where j = 0 it stores this tile's column of least distances over whatever the column held; where j ≠ 0 it
  reads the column back and stores the smaller, entry by entry, of what was held and this tile's. The column block is
  written back to the result only after j = 15, so between j = 0 and j = 15 its staging buffer carries the running
  least value: what it holds after a point is defined by recursion on the point, restarting at every j = 0.
  Stated for any region-entry contents `V` and any float instance.
-/
import proofs.«111008_j70153995813078_1_alg».proof.Proof.Gen.Kernel.Launch
import proofs.«111008_j70153995813078_1_alg».proof.Proof.Gen.Kernel.Skeleton
import proofs.«111008_j70153995813078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds its block at every point, fetched there or not (its block index moves
    only with i, and then it is fetched). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's likewise (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid point -/

/-- "j = 0" holds exactly at the points divisible by 16 (points are numbered 16 i + j). -/
theorem hfirst1 : ∀ t : Fin cfg1.N, k1_cond1 (grid1.coords t) = 1#1 ↔ t.val % 16 = 0 :=
  (by decide +kernel : ∀ t : Fin grid1.N, k1_cond1 (grid1.coords t) = 1#1 ↔ t.val % 16 = 0)
/-- "j ≠ 0" holds exactly at the others. -/
theorem hlater1 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- One of the two holds at every grid point, so the result window is stored at every point. -/
theorem live1_2 (i : grid1.Coords) : cfg1.idle 2 i = false :=
  (by decide : ∀ j : Fin 16,
    (!(Scalar.cmpi .ne (Scalar.extui (Scalar.cmpi .eq (BitVec.ofNat 32 j.val) 0#32) : BitVec 32) 0#32 == 1#1)
      && !(Scalar.cmpi .ne (Scalar.extui (Scalar.cmpi .ne (BitVec.ofNat 32 j.val) 0#32) : BitVec 32) 0#32 == 1#1)) = false) (i 1)

/-! ## The body on any staging memrefs -/

/-- One staging buffer of the result window, through which its contents are stated (the choice does not matter). -/
abbrev VO1_2 : View sig .tc .vmem S1024x1 .f32 := (Memref.whole cc1_stg2_0 : Memref sig .tc .vmem S1024x1 .f32).view
/-- Each window's current staging memref at point `t`, and its wholeness. -/
abbrev ms1_0 (t : Fin cfg1.N) : Memref sig .tc .vmem S1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)

end Region

end Cert.Kernel.Rows

end
-- ==== Proof.BitsCall1First.lean ====
/-
  The row-minimum kernel's body at a grid point with j = 0, run on any whole staging memrefs: the two operand blocks
  are read, the result column's buffer (holding anything) is read once and then stored whole with this tile's column.
  The list of stores the buffer ends with is found by the run itself.
-/
import proofs.«111008_j70153995813078_1_alg».proof.Proof.BitsCall1Grid

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j = 0: from the operands' memrefs at contents `x0`, `x1` and the result's at anything, the body runs
    to the continuation with the operands' as they were and the result's buffer with the found stores written. -/
noncomputable def kernelRun1_A (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k1_cond1 i = 1#1) (hc1 : ¬ k1_cond2 i = 1#1)
    (x0 : Vec F S1024x3 .f32) (x1 : Vec F S1024x3 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__rowmin_kernel i arg2 harg2 arg3 harg3 arg4 harg4) K } := by
  refine ⟨?_, fun E K => ?run⟩
  case run =>
    simp only [cc1__rowmin_kernel_eq_skeleton]; unfold cc1__rowmin_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Rows

end
-- ==== Proof.BitsCall1Later.lean ====
/-
  The row-minimum kernel's body at a grid point with j ≠ 0, run on any whole staging memrefs: the two operand blocks
  are read, the result column's buffer (holding the running least values `xo`) is read back and stored whole with the
  smaller, entry by entry, of what it held and this tile's column. The list of stores is found by the run itself.
-/
import proofs.«111008_j70153995813078_1_alg».proof.Proof.BitsCall1First

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point with j ≠ 0: from the operands' memrefs at contents `x0`, `x1` and the result's at `xo`, the body runs to
    the continuation with the operands' as they were and the result's buffer with the found stores written. -/
noncomputable def kernelRun1_B (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k1_cond1 i = 1#1) (hc1 : k1_cond2 i = 1#1)
    (x0 : Vec F S1024x3 .f32) (x1 : Vec F S1024x3 .f32) (xo : Vec F S1024x1 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__rowmin_kernel i arg2 harg2 arg3 harg3 arg4 harg4) K } := by
  refine ⟨?_, fun E K => ?run⟩
  case run =>
    simp only [cc1__rowmin_kernel_eq_skeleton]; unfold cc1__rowmin_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Rows

end
-- ==== Proof.BitsCall1.lean ====
/-
  One call of the row-minimum kernel: what the result column's staging buffer holds after each grid point, the call's
  proof data, and the body's obligation at every point.

  After a point with j = 0 the buffer holds that tile's stores; after a point with j ≠ 0 it holds that tile's stores
  over what the point before left (the buffer is not written back between: write-back happens only after j = 15, and
  the next point then has j = 0). The two operand windows are only read, so their buffers hold their blocks throughout.
-/
import proofs.«111008_j70153995813078_1_alg».proof.Proof.BitsCall1Later

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The stores of a point with j = 0 tile the result's block, so they cover it. -/
theorem cover1_A_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k1_cond1 i = 1#1) (hc1 : ¬ k1_cond2 i = 1#1)
    (x0 : Vec F S1024x3 .f32) (x1 : Vec F S1024x3 .f32) (y : S1024x1.Idx) :
    ∃ pc ∈ (kernelRun1_A c i arg2 harg2 arg3 harg3 arg4 harg4 hc0 hc1 x0 x1).1, y ∈ pc.1.set :=
  View.cover_of_tiledL (kernelRun1_A c i arg2 harg2 arg3 harg3 arg4 harg4 hc0 hc1 x0 x1).1 S1024x1.size (by sl_kernel_rfl) y

/-- What a point with j = 0 leaves in the result's staging buffer: its stores read back. -/
def out1_A_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k1_cond1 i = 1#1) (hc1 : ¬ k1_cond2 i = 1#1)
    (x0 : Vec F S1024x3 .f32) (x1 : Vec F S1024x3 .f32) : Vec F S1024x1 .f32 :=
  VO1_2.read (Elt F) (VO1_2.writes (Elt F) VO1_2.junk (kernelRun1_A c i arg2 harg2 arg3 harg3 arg4 harg4 hc0 hc1 x0 x1).1)

/-- The stores of a point with j ≠ 0 tile the result's block, so they cover it. -/
theorem cover1_B_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k1_cond1 i = 1#1) (hc1 : k1_cond2 i = 1#1)
    (x0 : Vec F S1024x3 .f32) (x1 : Vec F S1024x3 .f32) (xo : Vec F S1024x1 .f32) (y : S1024x1.Idx) :
    ∃ pc ∈ (kernelRun1_B c i arg2 harg2 arg3 harg3 arg4 harg4 hc0 hc1 x0 x1 xo).1, y ∈ pc.1.set :=
  View.cover_of_tiledL (kernelRun1_B c i arg2 harg2 arg3 harg3 arg4 harg4 hc0 hc1 x0 x1 xo).1 S1024x1.size (by sl_kernel_rfl) y

/-- What a point with j ≠ 0 leaves in the result's staging buffer: its stores read back. -/
def out1_B_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k1_cond1 i = 1#1) (hc1 : k1_cond2 i = 1#1)
    (x0 : Vec F S1024x3 .f32) (x1 : Vec F S1024x3 .f32) (xo : Vec F S1024x1 .f32) : Vec F S1024x1 .f32 :=
  VO1_2.read (Elt F) (VO1_2.writes (Elt F) VO1_2.junk (kernelRun1_B c i arg2 harg2 arg3 harg3 arg4 harg4 hc0 hc1 x0 x1 xo).1)

/-! ## What the result's staging buffer holds after each point -/

/-- The running column. After point `n`: at j = 0 that tile's stores; at j ≠ 0 that tile's stores over what point `n - 1`
    left. -/
def outsAt1 (c : Dev nD) : (n : ℕ) → n < cfg1.N → Vec F S1024x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hfirst1 ⟨0, hn⟩).mpr (Nat.zero_mod _)) (fun h => (hlater1 ⟨0, hn⟩).mp h (Nat.zero_mod _)) (iblk1 V c 0 ⟨0, hn⟩) (iblk1 V c 1 ⟨0, hn⟩)
  | n + 1, hn =>
    if h0 : (n + 1) % 16 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hfirst1 ⟨n + 1, hn⟩).mpr h0) (fun h => (hlater1 ⟨n + 1, hn⟩).mp h h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hfirst1 ⟨n + 1, hn⟩).mp h)) ((hlater1 ⟨n + 1, hn⟩).mpr h0) (iblk1 V c 0 ⟨n + 1, hn⟩) (iblk1 V c 1 ⟨n + 1, hn⟩) (outsAt1 c n (Nat.lt_of_succ_lt hn))

/-- The running column at a point with j = 0. -/
theorem outsAt1_A (c : Dev nD) (t : Fin cfg1.N) (h0 : t.val % 16 = 0) :
    outsAt1 V c t.val t.isLt = out1_A_2 c (grid1.coords t) (ms1_0 t) (hs1_0 t) (ms1_1 t) (hs1_1 t) (ms1_2 t) (hs1_2 t)
      ((hfirst1 t).mpr h0) (fun h => (hlater1 t).mp h h0) (iblk1 V c 0 t) (iblk1 V c 1 t) := by
  obtain ⟨n, hn⟩ := t
  cases n with
  | zero => exact rfl
  | succ n => exact (dif_pos h0).trans rfl

/-- The running column at a point with j ≠ 0: over what the point before left. -/
theorem outsAt1_B (c : Dev nD) (t : Fin cfg1.N) (h0 : ¬t.val % 16 = 0) :
    outsAt1 V c t.val t.isLt = out1_B_2 c (grid1.coords t) (ms1_0 t) (hs1_0 t) (ms1_1 t) (hs1_1 t) (ms1_2 t) (hs1_2 t)
      (fun h => h0 ((hfirst1 t).mp h)) ((hlater1 t).mpr h0) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The arrays as the call finds them; after the body at point `t` each operand's buffer at its block and the result's
    at the running column; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with j ≠ 0 the result's staging buffer holds what the body left at the point before: the point is not
    the first, and the buffer was not written back between (that happens only after j = 15). -/
theorem before1_2_B (c : Dev nD) (t : Fin cfg1.N) (h0 : ¬t.val % 16 = 0) (d) :
    (dat1 V c).before 2 t d = (outsAt1 V c (t.val - 1) (Nat.lt_of_le_of_lt (Nat.sub_le _ _) t.isLt)) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (live1_2) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the operands' memrefs hold their blocks; the point has j = 0 or j ≠ 0, and in the second case
    the result's buffer holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 16 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hfirst1 t).mpr h0) (fun h => (hlater1 t).mp h h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hfirst1 t).mp h)) ((hlater1 t).mpr h0) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _)

/-- The result window is stored at every point. -/
theorem stored1_2 (t : Fin cfg1.N) : cfg1.idle 2 (cfg1.grid.coords t) = false := live1_2 _

/-- The body obligation, at every point. -/
theorem body_obligation1 (c : Dev nD) : BodyObligation (dat1 (F := F) V c) (defs₀ (F := F)) Variants.none () Set.univ := fun t => by
  rw [bigSep_W1, bigSep_W1]
  rw [stored1_2 t]
  exact sound_body1 V c t

end Region

end Cert.Kernel.Rows

end
-- ==== Proof.BitsMain.lean ====
/-
  The whole program run: two reshapes of the arguments into point clouds, the row-minimum call on (first, second), the
  same call on (second, first), and the host's averaging of the two result columns.

  Between two items every unscoped buffer is held at named contents: the launch memory; then the reshapes applied;
  then the first call's arrays at what its write-backs leave; then the second call's; then the averaging applied.
  Every weakly fair execution terminates and the final memory holds, at every unscoped buffer, the last of these
  contents. In particular no item writes an argument, so both end as launched. Stated for any float instance.
-/
import proofs.«111008_j70153995813078_1_alg».proof.Proof.BitsCall0
import proofs.«111008_j70153995813078_1_alg».proof.Proof.BitsCall1
import proofs.«111008_j70153995813078_1_alg».proof.Proof.Gen.Kernel.Regions

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the two reshapes (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the averaging (the end). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The frame: every execution terminates and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Rows

end
-- ==== Proof.IdealCall0Grid.lean ====
/-
  One call of the row-minimum kernel on its 16 × 16 grid, point by point.

  At grid point (i, j) the body is handed block i of the first operand, block j of the second and the column block i of
  the result. Where j = 0 it stores this tile's column of least distances over whatever the column held; where j ≠ 0 it
  reads the column back and stores the smaller, entry by entry, of what was held and this tile's. The column block is
  written back to the result only after j = 15, so between j = 0 and j = 15 its staging buffer carries the running
  least value: what it holds after a point is defined by recursion on the point, restarting at every j = 0.
  Stated for any region-entry contents `V` and any float instance.
-/
import proofs.«111008_j70153995813078_1_alg».proof.Proof.Gen.KernelIdeal.Launch
import proofs.«111008_j70153995813078_1_alg».proof.Proof.Gen.KernelIdeal.Skeleton
import proofs.«111008_j70153995813078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first operand's staging buffer holds its block at every point, fetched there or not (its block index moves
    only with i, and then it is fetched). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second operand's likewise (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the grid point -/

/-- "j = 0" holds exactly at the points divisible by 16 (points are numbered 16 i + j). -/
theorem hfirst0 : ∀ t : Fin cfg0.N, k0_cond1 (grid0.coords t) = 1#1 ↔ t.val % 16 = 0 :=
  (by decide +kernel : ∀ t : Fin grid0.N, k0_cond1 (grid0.coords t) = 1#1 ↔ t.val % 16 = 0)
/-- "j ≠ 0" holds exactly at the others. -/
theorem hlater0 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two holds at every grid point, so the result window is stored at every point. -/
theorem live0_2 (i : grid0.Coords) : cfg0.idle 2 i = false :=
  (by decide : ∀ j : Fin 16,
    (!(Scalar.cmpi .ne (Scalar.extui (Scalar.cmpi .eq (BitVec.ofNat 32 j.val) 0#32) : BitVec 32) 0#32 == 1#1)
      && !(Scalar.cmpi .ne (Scalar.extui (Scalar.cmpi .ne (BitVec.ofNat 32 j.val) 0#32) : BitVec 32) 0#32 == 1#1)) = false) (i 1)

/-! ## The body on any staging memrefs -/

/-- One staging buffer of the result window, through which its contents are stated (the choice does not matter). -/
abbrev VO0_2 : View sig .tc .vmem S1024x1 .f32 := (Memref.whole cc0_stg2_0 : Memref sig .tc .vmem S1024x1 .f32).view
/-- Each window's current staging memref at point `t`, and its wholeness. -/
abbrev ms0_0 (t : Fin cfg0.N) : Memref sig .tc .vmem S1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)

end Region

end Cert.KernelIdeal.Rows

end
-- ==== Proof.IdealCall0First.lean ====
/-
  The row-minimum kernel's body at a grid point with j = 0, run on any whole staging memrefs: the two operand blocks
  are read, the result column's buffer (holding anything) is read once and then stored whole with this tile's column.
  The list of stores the buffer ends with is found by the run itself.
-/
import proofs.«111008_j70153995813078_1_alg».proof.Proof.IdealCall0Grid

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j = 0: from the operands' memrefs at contents `x0`, `x1` and the result's at anything, the body runs
    to the continuation with the operands' as they were and the result's buffer with the found stores written. -/
noncomputable def kernelRun0_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k0_cond1 i = 1#1) (hc1 : ¬ k0_cond2 i = 1#1)
    (x0 : Vec F S1024x3 .f32) (x1 : Vec F S1024x3 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__rowmin_kernel i arg2 harg2 arg3 harg3 arg4 harg4) K } := by
  refine ⟨?_, fun E K => ?run⟩
  case run =>
    simp only [cc0__rowmin_kernel_eq_skeleton]; unfold cc0__rowmin_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Rows

end
-- ==== Proof.IdealCall0Later.lean ====
/-
  The row-minimum kernel's body at a grid point with j ≠ 0, run on any whole staging memrefs: the two operand blocks
  are read, the result column's buffer (holding the running least values `xo`) is read back and stored whole with the
  smaller, entry by entry, of what it held and this tile's column. The list of stores is found by the run itself.
-/
import proofs.«111008_j70153995813078_1_alg».proof.Proof.IdealCall0First

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j ≠ 0: from the operands' memrefs at contents `x0`, `x1` and the result's at `xo`, the body runs to
    the continuation with the operands' as they were and the result's buffer with the found stores written. -/
noncomputable def kernelRun0_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k0_cond1 i = 1#1) (hc1 : k0_cond2 i = 1#1)
    (x0 : Vec F S1024x3 .f32) (x1 : Vec F S1024x3 .f32) (xo : Vec F S1024x1 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__rowmin_kernel i arg2 harg2 arg3 harg3 arg4 harg4) K } := by
  refine ⟨?_, fun E K => ?run⟩
  case run =>
    simp only [cc0__rowmin_kernel_eq_skeleton]; unfold cc0__rowmin_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Rows

end
-- ==== Proof.IdealCall0.lean ====
/-
  One call of the row-minimum kernel: what the result column's staging buffer holds after each grid point, the call's
  proof data, and the body's obligation at every point.

  After a point with j = 0 the buffer holds that tile's stores; after a point with j ≠ 0 it holds that tile's stores
  over what the point before left (the buffer is not written back between: write-back happens only after j = 15, and
  the next point then has j = 0). The two operand windows are only read, so their buffers hold their blocks throughout.
-/
import proofs.«111008_j70153995813078_1_alg».proof.Proof.IdealCall0Later

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The stores of a point with j = 0 tile the result's block, so they cover it. -/
theorem cover0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k0_cond1 i = 1#1) (hc1 : ¬ k0_cond2 i = 1#1)
    (x0 : Vec F S1024x3 .f32) (x1 : Vec F S1024x3 .f32) (y : S1024x1.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1024x1.size (by sl_kernel_rfl) y

/-- What a point with j = 0 leaves in the result's staging buffer: its stores read back. -/
def out0_A_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k0_cond1 i = 1#1) (hc1 : ¬ k0_cond2 i = 1#1)
    (x0 : Vec F S1024x3 .f32) (x1 : Vec F S1024x3 .f32) : Vec F S1024x1 .f32 :=
  VO0_2.read (Elt F) (VO0_2.writes (Elt F) VO0_2.junk (kernelRun0_A c i arg2 harg2 arg3 harg3 arg4 harg4 hc0 hc1 x0 x1).1)

/-- The stores of a point with j ≠ 0 tile the result's block, so they cover it. -/
theorem cover0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k0_cond1 i = 1#1) (hc1 : k0_cond2 i = 1#1)
    (x0 : Vec F S1024x3 .f32) (x1 : Vec F S1024x3 .f32) (xo : Vec F S1024x1 .f32) (y : S1024x1.Idx) :
    ∃ pc ∈ (kernelRun0_B c i arg2 harg2 arg3 harg3 arg4 harg4 hc0 hc1 x0 x1 xo).1, y ∈ pc.1.set :=
  View.cover_of_tiledL (kernelRun0_B c i arg2 harg2 arg3 harg3 arg4 harg4 hc0 hc1 x0 x1 xo).1 S1024x1.size (by sl_kernel_rfl) y

/-- What a point with j ≠ 0 leaves in the result's staging buffer: its stores read back. -/
def out0_B_2 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k0_cond1 i = 1#1) (hc1 : k0_cond2 i = 1#1)
    (x0 : Vec F S1024x3 .f32) (x1 : Vec F S1024x3 .f32) (xo : Vec F S1024x1 .f32) : Vec F S1024x1 .f32 :=
  VO0_2.read (Elt F) (VO0_2.writes (Elt F) VO0_2.junk (kernelRun0_B c i arg2 harg2 arg3 harg3 arg4 harg4 hc0 hc1 x0 x1 xo).1)

/-! ## What the result's staging buffer holds after each point -/

/-- The running column. After point `n`: at j = 0 that tile's stores; at j ≠ 0 that tile's stores over what point `n - 1`
    left. -/
def outsAt0 (c : Dev nD) : (n : ℕ) → n < cfg0.N → Vec F S1024x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hfirst0 ⟨0, hn⟩).mpr (Nat.zero_mod _)) (fun h => (hlater0 ⟨0, hn⟩).mp h (Nat.zero_mod _)) (iblk0 V c 0 ⟨0, hn⟩) (iblk0 V c 1 ⟨0, hn⟩)
  | n + 1, hn =>
    if h0 : (n + 1) % 16 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hfirst0 ⟨n + 1, hn⟩).mpr h0) (fun h => (hlater0 ⟨n + 1, hn⟩).mp h h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hfirst0 ⟨n + 1, hn⟩).mp h)) ((hlater0 ⟨n + 1, hn⟩).mpr h0) (iblk0 V c 0 ⟨n + 1, hn⟩) (iblk0 V c 1 ⟨n + 1, hn⟩) (outsAt0 c n (Nat.lt_of_succ_lt hn))

/-- The running column at a point with j = 0. -/
theorem outsAt0_A (c : Dev nD) (t : Fin cfg0.N) (h0 : t.val % 16 = 0) :
    outsAt0 V c t.val t.isLt = out0_A_2 c (grid0.coords t) (ms0_0 t) (hs0_0 t) (ms0_1 t) (hs0_1 t) (ms0_2 t) (hs0_2 t)
      ((hfirst0 t).mpr h0) (fun h => (hlater0 t).mp h h0) (iblk0 V c 0 t) (iblk0 V c 1 t) := by
  obtain ⟨n, hn⟩ := t
  cases n with
  | zero => exact rfl
  | succ n => exact (dif_pos h0).trans rfl

/-- The running column at a point with j ≠ 0: over what the point before left. -/
theorem outsAt0_B (c : Dev nD) (t : Fin cfg0.N) (h0 : ¬t.val % 16 = 0) :
    outsAt0 V c t.val t.isLt = out0_B_2 c (grid0.coords t) (ms0_0 t) (hs0_0 t) (ms0_1 t) (hs0_1 t) (ms0_2 t) (hs0_2 t)
      (fun h => h0 ((hfirst0 t).mp h)) ((hlater0 t).mpr h0) (iblk0 V c 0 t) (iblk0 V c 1 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The arrays as the call finds them; after the body at point `t` each operand's buffer at its block and the result's
    at the running column; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point with j ≠ 0 the result's staging buffer holds what the body left at the point before: the point is not
    the first, and the buffer was not written back between (that happens only after j = 15). -/
theorem before0_2_B (c : Dev nD) (t : Fin cfg0.N) (h0 : ¬t.val % 16 = 0) (d) :
    (dat0 V c).before 2 t d = (outsAt0 V c (t.val - 1) (Nat.lt_of_le_of_lt (Nat.sub_le _ _) t.isLt)) := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (live0_2) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the operands' memrefs hold their blocks; the point has j = 0 or j ≠ 0, and in the second case
    the result's buffer holds what the point before left; so the matching run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 16 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hfirst0 t).mpr h0) (fun h => (hlater0 t).mp h h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hfirst0 t).mp h)) ((hlater0 t).mpr h0) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The result window is stored at every point. -/
theorem stored0_2 (t : Fin cfg0.N) : cfg0.idle 2 (cfg0.grid.coords t) = false := live0_2 _

/-- The body obligation, at every point. -/
theorem body_obligation0 (c : Dev nD) : BodyObligation (dat0 (F := F) V c) (defs₀ (F := F)) Variants.none () Set.univ := fun t => by
  rw [bigSep_W0, bigSep_W0]
  rw [stored0_2 t]
  exact sound_body0 V c t

end Region

end Cert.KernelIdeal.Rows

end
-- ==== Proof.IdealCall1Grid.lean ====
/-
  One call of the row-minimum kernel on its 16 × 16 grid, point by point.

  At grid point (i, j) the body is handed block i of the first operand, block j of the second and the column block i of
  the result. Where j = 0 it stores this tile's column of least distances over whatever the column held; where j ≠ 0 it
  reads the column back and stores the smaller, entry by entry, of what was held and this tile's. The column block is
  written back to the result only after j = 15, so between j = 0 and j = 15 its staging buffer carries the running
  least value: what it holds after a point is defined by recursion on the point, restarting at every j = 0.
  Stated for any region-entry contents `V` and any float instance.
-/
import proofs.«111008_j70153995813078_1_alg».proof.Proof.Gen.KernelIdeal.Launch
import proofs.«111008_j70153995813078_1_alg».proof.Proof.Gen.KernelIdeal.Skeleton
import proofs.«111008_j70153995813078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's staging buffer holds its block at every point, fetched there or not (its block index moves
    only with i, and then it is fetched). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's likewise (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the grid point -/

/-- "j = 0" holds exactly at the points divisible by 16 (points are numbered 16 i + j). -/
theorem hfirst1 : ∀ t : Fin cfg1.N, k1_cond1 (grid1.coords t) = 1#1 ↔ t.val % 16 = 0 :=
  (by decide +kernel : ∀ t : Fin grid1.N, k1_cond1 (grid1.coords t) = 1#1 ↔ t.val % 16 = 0)
/-- "j ≠ 0" holds exactly at the others. -/
theorem hlater1 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- One of the two holds at every grid point, so the result window is stored at every point. -/
theorem live1_2 (i : grid1.Coords) : cfg1.idle 2 i = false :=
  (by decide : ∀ j : Fin 16,
    (!(Scalar.cmpi .ne (Scalar.extui (Scalar.cmpi .eq (BitVec.ofNat 32 j.val) 0#32) : BitVec 32) 0#32 == 1#1)
      && !(Scalar.cmpi .ne (Scalar.extui (Scalar.cmpi .ne (BitVec.ofNat 32 j.val) 0#32) : BitVec 32) 0#32 == 1#1)) = false) (i 1)

/-! ## The body on any staging memrefs -/

/-- One staging buffer of the result window, through which its contents are stated (the choice does not matter). -/
abbrev VO1_2 : View sig .tc .vmem S1024x1 .f32 := (Memref.whole cc1_stg2_0 : Memref sig .tc .vmem S1024x1 .f32).view
/-- Each window's current staging memref at point `t`, and its wholeness. -/
abbrev ms1_0 (t : Fin cfg1.N) : Memref sig .tc .vmem S1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)

end Region

end Cert.KernelIdeal.Rows

end
-- ==== Proof.IdealCall1First.lean ====
/-
  The row-minimum kernel's body at a grid point with j = 0, run on any whole staging memrefs: the two operand blocks
  are read, the result column's buffer (holding anything) is read once and then stored whole with this tile's column.
  The list of stores the buffer ends with is found by the run itself.
-/
import proofs.«111008_j70153995813078_1_alg».proof.Proof.IdealCall1Grid

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j = 0: from the operands' memrefs at contents `x0`, `x1` and the result's at anything, the body runs
    to the continuation with the operands' as they were and the result's buffer with the found stores written. -/
noncomputable def kernelRun1_A (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k1_cond1 i = 1#1) (hc1 : ¬ k1_cond2 i = 1#1)
    (x0 : Vec F S1024x3 .f32) (x1 : Vec F S1024x3 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__rowmin_kernel i arg2 harg2 arg3 harg3 arg4 harg4) K } := by
  refine ⟨?_, fun E K => ?run⟩
  case run =>
    simp only [cc1__rowmin_kernel_eq_skeleton]; unfold cc1__rowmin_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Rows

end
-- ==== Proof.IdealCall1Later.lean ====
/-
  The row-minimum kernel's body at a grid point with j ≠ 0, run on any whole staging memrefs: the two operand blocks
  are read, the result column's buffer (holding the running least values `xo`) is read back and stored whole with the
  smaller, entry by entry, of what it held and this tile's column. The list of stores is found by the run itself.
-/
import proofs.«111008_j70153995813078_1_alg».proof.Proof.IdealCall1First

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point with j ≠ 0: from the operands' memrefs at contents `x0`, `x1` and the result's at `xo`, the body runs to
    the continuation with the operands' as they were and the result's buffer with the found stores written. -/
noncomputable def kernelRun1_B (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k1_cond1 i = 1#1) (hc1 : k1_cond2 i = 1#1)
    (x0 : Vec F S1024x3 .f32) (x1 : Vec F S1024x3 .f32) (xo : Vec F S1024x1 .f32) :
    { L2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__rowmin_kernel i arg2 harg2 arg3 harg3 arg4 harg4) K } := by
  refine ⟨?_, fun E K => ?run⟩
  case run =>
    simp only [cc1__rowmin_kernel_eq_skeleton]; unfold cc1__rowmin_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Rows

end
-- ==== Proof.IdealCall1.lean ====
/-
  One call of the row-minimum kernel: what the result column's staging buffer holds after each grid point, the call's
  proof data, and the body's obligation at every point.

  After a point with j = 0 the buffer holds that tile's stores; after a point with j ≠ 0 it holds that tile's stores
  over what the point before left (the buffer is not written back between: write-back happens only after j = 15, and
  the next point then has j = 0). The two operand windows are only read, so their buffers hold their blocks throughout.
-/
import proofs.«111008_j70153995813078_1_alg».proof.Proof.IdealCall1Later

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The stores of a point with j = 0 tile the result's block, so they cover it. -/
theorem cover1_A_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k1_cond1 i = 1#1) (hc1 : ¬ k1_cond2 i = 1#1)
    (x0 : Vec F S1024x3 .f32) (x1 : Vec F S1024x3 .f32) (y : S1024x1.Idx) :
    ∃ pc ∈ (kernelRun1_A c i arg2 harg2 arg3 harg3 arg4 harg4 hc0 hc1 x0 x1).1, y ∈ pc.1.set :=
  View.cover_of_tiledL (kernelRun1_A c i arg2 harg2 arg3 harg3 arg4 harg4 hc0 hc1 x0 x1).1 S1024x1.size (by sl_kernel_rfl) y

/-- What a point with j = 0 leaves in the result's staging buffer: its stores read back. -/
def out1_A_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : k1_cond1 i = 1#1) (hc1 : ¬ k1_cond2 i = 1#1)
    (x0 : Vec F S1024x3 .f32) (x1 : Vec F S1024x3 .f32) : Vec F S1024x1 .f32 :=
  VO1_2.read (Elt F) (VO1_2.writes (Elt F) VO1_2.junk (kernelRun1_A c i arg2 harg2 arg3 harg3 arg4 harg4 hc0 hc1 x0 x1).1)

/-- The stores of a point with j ≠ 0 tile the result's block, so they cover it. -/
theorem cover1_B_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k1_cond1 i = 1#1) (hc1 : k1_cond2 i = 1#1)
    (x0 : Vec F S1024x3 .f32) (x1 : Vec F S1024x3 .f32) (xo : Vec F S1024x1 .f32) (y : S1024x1.Idx) :
    ∃ pc ∈ (kernelRun1_B c i arg2 harg2 arg3 harg3 arg4 harg4 hc0 hc1 x0 x1 xo).1, y ∈ pc.1.set :=
  View.cover_of_tiledL (kernelRun1_B c i arg2 harg2 arg3 harg3 arg4 harg4 hc0 hc1 x0 x1 xo).1 S1024x1.size (by sl_kernel_rfl) y

/-- What a point with j ≠ 0 leaves in the result's staging buffer: its stores read back. -/
def out1_B_2 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole)
    (hc0 : ¬ k1_cond1 i = 1#1) (hc1 : k1_cond2 i = 1#1)
    (x0 : Vec F S1024x3 .f32) (x1 : Vec F S1024x3 .f32) (xo : Vec F S1024x1 .f32) : Vec F S1024x1 .f32 :=
  VO1_2.read (Elt F) (VO1_2.writes (Elt F) VO1_2.junk (kernelRun1_B c i arg2 harg2 arg3 harg3 arg4 harg4 hc0 hc1 x0 x1 xo).1)

/-! ## What the result's staging buffer holds after each point -/

/-- The running column. After point `n`: at j = 0 that tile's stores; at j ≠ 0 that tile's stores over what point `n - 1`
    left. -/
def outsAt1 (c : Dev nD) : (n : ℕ) → n < cfg1.N → Vec F S1024x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hfirst1 ⟨0, hn⟩).mpr (Nat.zero_mod _)) (fun h => (hlater1 ⟨0, hn⟩).mp h (Nat.zero_mod _)) (iblk1 V c 0 ⟨0, hn⟩) (iblk1 V c 1 ⟨0, hn⟩)
  | n + 1, hn =>
    if h0 : (n + 1) % 16 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hfirst1 ⟨n + 1, hn⟩).mpr h0) (fun h => (hlater1 ⟨n + 1, hn⟩).mp h h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hfirst1 ⟨n + 1, hn⟩).mp h)) ((hlater1 ⟨n + 1, hn⟩).mpr h0) (iblk1 V c 0 ⟨n + 1, hn⟩) (iblk1 V c 1 ⟨n + 1, hn⟩) (outsAt1 c n (Nat.lt_of_succ_lt hn))

/-- The running column at a point with j = 0. -/
theorem outsAt1_A (c : Dev nD) (t : Fin cfg1.N) (h0 : t.val % 16 = 0) :
    outsAt1 V c t.val t.isLt = out1_A_2 c (grid1.coords t) (ms1_0 t) (hs1_0 t) (ms1_1 t) (hs1_1 t) (ms1_2 t) (hs1_2 t)
      ((hfirst1 t).mpr h0) (fun h => (hlater1 t).mp h h0) (iblk1 V c 0 t) (iblk1 V c 1 t) := by
  obtain ⟨n, hn⟩ := t
  cases n with
  | zero => exact rfl
  | succ n => exact (dif_pos h0).trans rfl

/-- The running column at a point with j ≠ 0: over what the point before left. -/
theorem outsAt1_B (c : Dev nD) (t : Fin cfg1.N) (h0 : ¬t.val % 16 = 0) :
    outsAt1 V c t.val t.isLt = out1_B_2 c (grid1.coords t) (ms1_0 t) (hs1_0 t) (ms1_1 t) (hs1_1 t) (ms1_2 t) (hs1_2 t)
      (fun h => h0 ((hfirst1 t).mp h)) ((hlater1 t).mpr h0) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The call's proof data -/

/-- The arrays as the call finds them; after the body at point `t` each operand's buffer at its block and the result's
    at the running column; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point with j ≠ 0 the result's staging buffer holds what the body left at the point before: the point is not
    the first, and the buffer was not written back between (that happens only after j = 15). -/
theorem before1_2_B (c : Dev nD) (t : Fin cfg1.N) (h0 : ¬t.val % 16 = 0) (d) :
    (dat1 V c).before 2 t d = (outsAt1 V c (t.val - 1) (Nat.lt_of_le_of_lt (Nat.sub_le _ _) t.isLt)) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (live1_2) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the operands' memrefs hold their blocks; the point has j = 0 or j ≠ 0, and in the second case
    the result's buffer holds what the point before left; so the matching run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 16 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hfirst1 t).mpr h0) (fun h => (hlater1 t).mp h h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hfirst1 t).mp h)) ((hlater1 t).mpr h0) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _)

/-- The result window is stored at every point. -/
theorem stored1_2 (t : Fin cfg1.N) : cfg1.idle 2 (cfg1.grid.coords t) = false := live1_2 _

/-- The body obligation, at every point. -/
theorem body_obligation1 (c : Dev nD) : BodyObligation (dat1 (F := F) V c) (defs₀ (F := F)) Variants.none () Set.univ := fun t => by
  rw [bigSep_W1, bigSep_W1]
  rw [stored1_2 t]
  exact sound_body1 V c t

end Region

end Cert.KernelIdeal.Rows

end
-- ==== Proof.IdealMain.lean ====
/-
  The whole program run: two reshapes of the arguments into point clouds, the row-minimum call on (first, second), the
  same call on (second, first), and the host's averaging of the two result columns.

  Between two items every unscoped buffer is held at named contents: the launch memory; then the reshapes applied;
  then the first call's arrays at what its write-backs leave; then the second call's; then the averaging applied.
  Every weakly fair execution terminates and the final memory holds, at every unscoped buffer, the last of these
  contents. In particular no item writes an argument, so both end as launched. Stated for any float instance.
-/
import proofs.«111008_j70153995813078_1_alg».proof.Proof.IdealCall0
import proofs.«111008_j70153995813078_1_alg».proof.Proof.IdealCall1
import proofs.«111008_j70153995813078_1_alg».proof.Proof.Gen.KernelIdeal.Regions

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => (s₀ m ρ).mem ((c : Dev nD), b)
/-- After the two reshapes (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the averaging (the end). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The first call: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the final
    memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The frame: every execution terminates and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Rows

end
-- ==== Proof.Nearest.lean ====
/-
  Nearest-point distances between two clouds of points in 3-space, over the extended reals.

  The distance between two points a and b is taken through the expansion ‖a‖² + ‖b‖² − 2 a·b, clipped below at zero
  before the square root. The nearest distance from a point to a cloud is the least of its distances to the cloud's
  rows, started from +∞. A least value over a range of rows splits into the least values over consecutive stretches of
  it, which is what a computation that visits the cloud tile by tile relies on. The loss is the mean, over groups of 8
  consecutive points and then over the 2048 groups, of the nearest distances in each direction, the two means added.
-/
import Idealize.ShloMosaic.Lib.ValueIdx
import Idealize.ShloMosaic.PureOps.Ideal.Laws
import Mathlib.Data.Finset.Fold
import Mathlib.Data.Fintype.Fin
import Mathlib.Order.Interval.Finset.Nat

noncomputable section

open scoped BigOperators

namespace Cert.Nearest

open Idealize.ShloMosaic Idealize.ShloMosaic.ValueIdx

/-- The factor 2 of the cross term, the clip level 0 and the starting value +∞, as the bit patterns denote them. -/
abbrev two : EReal := Ideal.ofBits .f32 0x40000000#32
abbrev zero : EReal := Ideal.ofBits .f32 0x00000000#32
abbrev top : EReal := Ideal.ofBits .f32 0x7F800000#32

theorem top_eq : top = ⊤ := by simp [Ideal.ofBits, Ideal.ieee]

/-- The distance between the points `a` and `b` (coordinate functions): √ max(‖a‖² + ‖b‖² − 2 a·b, 0). -/
def gap (a b : Fin 3 → EReal) : EReal :=
  Ideal.sqrt (max (((∑ d : Fin 3, a d * a d) + (∑ d : Fin 3, b d * b d)) - two * ∑ d : Fin 3, a d * b d) zero)

/-- The distance is symmetric: sums and products of extended reals commute. -/
theorem gap_comm (a b : Fin 3 → EReal) : gap a b = gap b a := by
  have hcross : (∑ d : Fin 3, a d * b d) = ∑ d : Fin 3, b d * a d :=
    Finset.sum_congr rfl (fun d _ => mul_comm (a d) (b d))
  unfold gap
  rw [hcross, add_comm (∑ d : Fin 3, a d * a d) (∑ d : Fin 3, b d * b d)]

/-- The least of `f 0, …, f (n-1)`, from +∞. -/
def lowest (f : ℕ → EReal) (n : ℕ) : EReal := (Finset.range n).fold min top f

theorem lowest_zero (f : ℕ → EReal) : lowest f 0 = top := by
  unfold lowest
  rw [Finset.range_zero, Finset.fold_empty]

/-- One more value: the least over `n + 1` values is the smaller of the last one and the least over the first `n`. -/
theorem lowest_succ (f : ℕ → EReal) (n : ℕ) : lowest f (n + 1) = min (f n) (lowest f n) := by
  unfold lowest
  rw [Finset.range_add_one, Finset.fold_insert Finset.notMem_range_self]

/-- The least over `a + b` values is the smaller of the least over the first `a` and the least over the next `b`. -/
theorem lowest_add (f : ℕ → EReal) (a b : ℕ) :
    lowest f (a + b) = min (lowest f a) (lowest (fun k => f (a + k)) b) := by
  induction b with
  | zero =>
    rw [lowest_zero, Nat.add_zero, top_eq, min_top_right]
  | succ b ih =>
    rw [← Nat.add_assoc, lowest_succ, lowest_succ, ih]
    exact min_left_comm _ _ _

/-- Starting from +∞ changes nothing. -/
theorem min_top_left (x : EReal) : min top x = x := by
  rw [top_eq]
  exact _root_.min_top_left x

/-- The least over an index type `Fin n` is the least over the numbers below `n`. -/
theorem fold_fin_eq_lowest (f : ℕ → EReal) (n : ℕ) :
    (Finset.univ : Finset (Fin n)).fold min top (fun k => f k.val) = lowest f n := by
  unfold lowest
  rw [← Nat.Iio_eq_range, ← Fin.map_valEmbedding_univ, Finset.fold_map]
  rfl

/-- Row `n` of a cloud, as a coordinate function; the zero point out of range. -/
def row {R : ℕ} (A : (⟨2, ![R, 3]⟩ : Shape).Idx → EReal) (n : ℕ) : Fin 3 → EReal :=
  fun d => if h : n < R then A (ix2 ⟨n, h⟩ d) else 0

theorem row_fin {R : ℕ} (A : (⟨2, ![R, 3]⟩ : Shape).Idx → EReal) (n : Fin R) :
    row A n.val = fun d => A (ix2 n d) := by
  funext d
  unfold row
  rw [dif_pos n.isLt]

/-- The nearest distance from the point `a` to the rows of the cloud `B`. -/
def nearest {R : ℕ} (a : Fin 3 → EReal) (B : (⟨2, ![R, 3]⟩ : Shape).Idx → EReal) : EReal :=
  (Finset.univ : Finset (Fin R)).fold min top (fun m => gap a (fun d => B (ix2 m d)))

/-- … is the least of the distances to its rows taken by number. -/
theorem nearest_eq_lowest {R : ℕ} (a : Fin 3 → EReal) (B : (⟨2, ![R, 3]⟩ : Shape).Idx → EReal) :
    nearest a B = lowest (fun m => gap a (row B m)) R := by
  rw [← fold_fin_eq_lowest]
  unfold nearest
  refine Finset.fold_congr (fun m _ => ?_)
  rw [row_fin]

/-- Entry `8 b + r` of a length-16384 list of values laid out as 2048 groups of 8. -/
def grouped (f : ℕ → EReal) : (⟨2, ![2048, 8]⟩ : Shape).Idx → EReal := fun i => f (8 * (i 0).val + (i 1).val)

/-- One direction's mean: each group's sum over 8, divided by 8; those summed over the 2048 groups, divided by 2048
    (sums from the zero initial value, as the host computes them). -/
def meanOf (hr1 : (⟨2, ![2048, 8]⟩ : Shape).ReducesTo [1] ⟨1, ![2048]⟩) (h0 : 0 < (⟨0, ![]⟩ : Shape).numel)
    (hb : (⟨0, ![]⟩ : Shape).BroadcastsInDim ⟨1, ![2048]⟩ (![] : Fin 0 → Fin 1))
    (hr0 : (⟨1, ![2048]⟩ : Shape).ReducesTo [0] ⟨0, ![]⟩)
    (P : FVec Ideal ⟨2, ![2048, 8]⟩ .f32) : FVec Ideal ⟨0, ![]⟩ .f32 :=
  Host.divf
    (Host.reduceAdd
      (Host.divf (Host.reduceAdd P (constant (F := Ideal) ⟨0, ![]⟩ .f32 0x00000000#32) hr1 h0)
        (broadcastInDim ⟨1, ![2048]⟩ ![] hb (constant (F := Ideal) ⟨0, ![]⟩ .f32 0x41000000#32)))
      (constant (F := Ideal) ⟨0, ![]⟩ .f32 0x00000000#32) hr0 h0)
    (constant (F := Ideal) ⟨0, ![]⟩ .f32 0x45000000#32)

/-- The loss from the two directions' nearest distances, each laid out in groups of 8. -/
def loss (hr1 : (⟨2, ![2048, 8]⟩ : Shape).ReducesTo [1] ⟨1, ![2048]⟩) (h0 : 0 < (⟨0, ![]⟩ : Shape).numel)
    (hb : (⟨0, ![]⟩ : Shape).BroadcastsInDim ⟨1, ![2048]⟩ (![] : Fin 0 → Fin 1))
    (hr0 : (⟨1, ![2048]⟩ : Shape).ReducesTo [0] ⟨0, ![]⟩)
    (P Q : FVec Ideal ⟨2, ![2048, 8]⟩ .f32) : FVec Ideal ⟨0, ![]⟩ .f32 :=
  addf (meanOf hr1 h0 hb hr0 P) (meanOf hr1 h0 hb hr0 Q)

/-- The two directions' nearest distances of the clouds `X` and `Y`, point by point. -/
def fromX (X Y : (⟨2, ![16384, 3]⟩ : Shape).Idx → EReal) (n : ℕ) : EReal := nearest (row X n) Y
def fromY (X Y : (⟨2, ![16384, 3]⟩ : Shape).Idx → EReal) (m : ℕ) : EReal := nearest (row Y m) X

end Cert.Nearest

end
-- ==== Proof.LibMatmulRows.lean ====
/-
  A matrix product that contracts the LAST axis of both rank-2 operands, read at one entry over the extended reals.

  The dimension numbers are those of `DotDims.transposedRhs M K N`: an M×K left operand against an N×K right operand
  (the right operand is used as it lies, rows against rows), into an M×N result. Started from the zero accumulator,
  entry (p, q) of the product is the plain sum over k of x[p, k] · y[q, k]: addition of extended reals is commutative
  and associative and the accumulator's zero is the neutral element, so no rounding and no chunk order is left.
  The contraction index (a one-axis index set) is re-indexed by its coordinate in `Fin K`.
-/
import Idealize.ShloMosaic.Lib.ValueIdx
import Idealize.ShloMosaic.PureOps.Ideal.Laws

noncomputable section

open scoped BigOperators

namespace Idealize.ShloMosaic.MatmulRows

open Idealize.ShloMosaic Idealize.ShloMosaic.ValueIdx

variable {M K N : Nat}

/-- The left operand is read at row `i 0` of the result index … -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- … and at the contraction position on its last axis. -/
theorem lhs_col (i : (⟨2, ![M, N]⟩ : Shape).Idx) (q : (DotDims.transposedRhs M K N).contr.Idx) :
    ((DotDims.transposedRhs M K N).lhsIdx i q 1).val = (q ⟨0, by rw [DotDims.rank_contr]; exact Nat.one_pos⟩).val :=
  (DotDims.transposedRhs M K N).lhsIdx_val_of_single rfl i q

/-- The right operand is read at row `i 1` of the result index … -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- … and at the same contraction position on its last axis. -/
theorem rhs_col (i : (⟨2, ![M, N]⟩ : Shape).Idx) (q : (DotDims.transposedRhs M K N).contr.Idx) :
    ((DotDims.transposedRhs M K N).rhsIdx i q 1).val = (q ⟨0, by rw [DotDims.rank_contr]; exact Nat.one_pos⟩).val :=
  (DotDims.transposedRhs M K N).rhsIdx_val_of_single rfl i q

/-- Entry (p, q) of x · yᵀ from the zero accumulator: the sum over k of x[p, k] · y[q, k]. -/
theorem matmul_zero_apply {φ₁ φ₂ : FTy} (prec : Option ContractPrecision)
    (x : FVec Ideal ⟨2, ![M, K]⟩ φ₁) (y : FVec Ideal ⟨2, ![N, K]⟩ φ₂) (p : Fin M) (q : Fin N) :
    FloatOps.matmul (DotDims.transposedRhs M K N) prec x y (constant ⟨2, ![M, N]⟩ .f32 0x00000000#32) (ix2 p q)
      = ∑ k : Fin K, x (ix2 p k) * y (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k)
      = ix2 p k := funext fun a => Fin.ext (by
    match a with
    | ⟨0, _⟩ => exact lhs_row _ _
    | ⟨1, _⟩ => exact (lhs_col _ _).trans hk)
  have er : (DotDims.transposedRhs M K N).rhsIdx (ix2 p q) ((contrEquiv1 (DotDims.transposedRhs M K N) K rfl rfl).symm k)
      = ix2 q k := funext fun a => Fin.ext (by
    match a with
    | ⟨0, _⟩ => exact rhs_row _ _
    | ⟨1, _⟩ => exact (rhs_col _ _).trans hk)
  rw [el, er]

end Idealize.ShloMosaic.MatmulRows

end
-- ==== Proof.Payload.lean ====
/-
  What one tile of the row-minimum kernel computes, entry by entry, over the extended reals.

  A tile pairs 1024 points `a` (rows of the first block) with 1024 points `b` (rows of the second block). For row `p`
  the kernel forms, for every `q`, √ max(‖a_p‖² + ‖b_q‖² − 2 a_p·b_q, 0) — the squared norms by a sum over the three
  coordinates, the cross term by a matrix product of the two blocks — and keeps the least over `q`, started from +∞:
  the nearest distance from `a_p` to the second block's rows. On a later tile of the same rows it keeps the smaller of
  that and the value already held.
-/
import proofs.«111008_j70153995813078_1_alg».proof.Proof.Gen.KernelIdeal.Skeleton
import proofs.«111008_j70153995813078_1_alg».proof.Proof.Nearest
import proofs.«111008_j70153995813078_1_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Nearest

variable [Cert.KernelIdeal.Facts]

/-! ## The tile's layout steps and reductions, read at one entry -/

/-- A sum along the three coordinates of row `p`, from the zero accumulator: the plain sum over `d`. -/
private theorem rowsum_apply (v : FVec Ideal S1024x3 .f32) (h : S1024x3.Reduces [1] S1024) (hφ : FTy.f32 = FTy.f32 ∨ FTy.f32 = FTy.bf16)
    (hacc : (0x00000000#32 : BitVec 32) = 0x00000000#32) (p : Fin 1024) :
    multiReduction (F := Ideal) .add [1] S1024 v 0x00000000#32 h hφ hacc (ix1 p) = ∑ d : Fin 3, v (ix2 p d) := by
  refine (Ideal.multiReduction_add_single v 0x00000000#32 h hφ hacc (ix1 p)).trans ?_
  refine Finset.sum_congr rfl fun d _ => congrArg v ?_
  funext a
  refine Fin.ext ?_
  match a with
  | ⟨0, _⟩ => rfl
  | ⟨1, _⟩ => rfl

/-- The least along row `p` of a square block, from the accumulator's value +∞: `min` of extended reals is commutative
    and associative, so the least over the entries that lie in row `p` is the fold over the column number `q`. -/
private theorem rowmin_apply (v : FVec Ideal S1024x1024 .f32) (h : S1024x1024.Reduces [1] S1024) (hφ : FTy.f32 = FTy.f32 ∨ FTy.f32 = FTy.bf16)
    (hacc : (0x7F800000#32 : BitVec 32) = 0x7F800000#32) (p : Fin 1024) :
    multiReduction (F := Ideal) .minimumf [1] S1024 v 0x7F800000#32 h hφ hacc (ix1 p)
      = (Finset.univ : Finset (Fin 1024)).fold min top (fun q => v (ix2 p q)) := by
  refine (multiReduction_minimumf_eq_fold v 0x7F800000#32 h hφ hacc (ix1 p)).trans ?_
  refine (h.fold_filter_drop_single _ _ v (ix1 p)).trans ?_
  show (Finset.univ : Finset (Fin 1024)).fold min top (v ∘ h.lift (ix1 p)) = _
  refine congrArg (fun f => (Finset.univ : Finset (Fin 1024)).fold min top f) (funext fun q => congrArg v ?_)
  funext a
  refine Fin.ext ?_
  match a with
  | ⟨0, _⟩ => rfl
  | ⟨1, _⟩ => rfl

/-- A vector of 1024 entries laid out as a column: entry `(p, 0)` is the vector's entry `p`. -/
private theorem col_apply {α : Type} (v : S1024.Idx → α) (h : S1024.ShapeCasts S1024x1) (p : Fin 1024) (u : Fin 1) :
    shapeCast S1024x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column repeated along 1024 columns: entry `(p, q)` is the column's entry `p`. -/
private theorem colAlong_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : ℕ) = 1 then 0 else p.val
    rw [if_neg (by decide)]
  | ⟨1, _⟩ => rfl

/-- A row repeated down 1024 rows: entry `(p, q)` is the row's entry `q`. -/
private theorem rowDown_apply {α : Type} (v : S1x1024.Idx → α) (h : S1x1024.Broadcasts S1024x1024) (p q : Fin 1024) :
    broadcastTo S1024x1024 v h (ix2 p q) = v (ix2 (0 : Fin 1) q) :=
  broadcastTo_1b_ab_apply v h p q

/-- A column turned into a row: entry `(0, q)` is the column's entry `(q, 0)`. -/
private theorem flip_apply {α : Type} (v : S1024x1.Idx → α) (h : S1024x1.Transposes [1, 0] S1x1024) (u : Fin 1) (q : Fin 1024) :
    transpose S1x1024 [1, 0] v h (ix2 u q) = v (ix2 q u) :=
  transpose_ix2_apply v h u q

/-- The square root of a block is taken entry by entry. -/
private theorem sqrt_apply {s : Shape} {φ : FTy} (v : FVec Ideal s φ) (i : s.Idx) : sqrt v i = Ideal.sqrt (v i) := rfl

/-- The kernel's dimension numbers are those of a product of rows against rows (both operands contracted on their last
    axis): the same six lists. -/
private theorem dot_eq : dot_S1024x3_S1024x3_S1024x1024_1_1_0_0_n_n = DotDims.transposedRhs 1024 3 1024 := rfl

/-- The product of the two blocks from the zero accumulator: entry `(p, q)` is the inner product of row `p` of the first
    with row `q` of the second. -/
private theorem cross_apply (x y : FVec Ideal S1024x3 .bf16) (p q : Fin 1024) :
    matmul (F := Ideal) dot_S1024x3_S1024x3_S1024x1024_1_1_0_0_n_n none x y
        (constant (F := Ideal) S1024x1024 .f32 0x00000000#32) (ix2 p q)
      = ∑ d : Fin 3, x (ix2 p d) * y (ix2 q d) := by
  rw [dot_eq]
  exact MatmulRows.matmul_zero_apply none x y p q

/-! ## The stored columns -/

/-- First call's tile: row `p` of the stored column is the nearest distance from row `p` of `x0` to the rows of `x1`.
    The column's entry is the least over `q` of the square block's entry `(p, q)`; that entry is, operation by
    operation, the distance between row `p` of `x0` and row `q` of `x1`: the two repeated norms read at `(p, q)` are
    ‖a_p‖² and ‖b_q‖², the product's entry is a_p·b_q, and the change of format before the product is the identity on
    extended reals. The factor 2 and the clip level 0 stay the words they are on both sides. -/
theorem k0_pay1_apply (x0 x1 : Vec Ideal S1024x3 .f32) (p : Fin 1024) (u : Fin 1) :
    k0_pay1 (F := Ideal) x0 x1 (ix2 p u) = nearest (fun d => x0 (ix2 p d)) x1 := by
  unfold k0_pay1
  refine (col_apply _ _ p u).trans ?_
  refine (rowmin_apply _ _ _ _ p).trans ?_
  unfold nearest
  refine congrArg (fun f => (Finset.univ : Finset (Fin 1024)).fold min top f) (funext fun q => ?_)
  simp only [sqrt_apply, maximumf_apply, subf_apply, addf_apply, mulf_apply, broadcast_apply, colAlong_apply,
    rowDown_apply, cross_apply, shapeCast_self, truncf_apply]
  rw [flip_apply, col_apply, col_apply, rowsum_apply, rowsum_apply]
  rfl

/-- On a later tile the stored column is the smaller of the column already held and this tile's. -/
theorem k0_pay2_apply (x0 x1 : Vec Ideal S1024x3 .f32) (xo : Vec Ideal S1024x1 .f32) (p : Fin 1024) (u : Fin 1) :
    k0_pay2 (F := Ideal) x0 x1 xo (ix2 p u) = min (xo (ix2 p u)) (nearest (fun d => x0 (ix2 p d)) x1) := by
  unfold k0_pay2
  refine (minimumf_apply _ _ (ix2 p u)).trans ?_
  rw [shapeCast_self, k0_pay1_apply]

/-- Second call's tile: the same function of its blocks. -/
theorem k1_pay1_apply (x0 x1 : Vec Ideal S1024x3 .f32) (p : Fin 1024) (u : Fin 1) :
    k1_pay1 (F := Ideal) x0 x1 (ix2 p u) = nearest (fun d => x0 (ix2 p d)) x1 := by
  unfold k1_pay1
  refine (col_apply _ _ p u).trans ?_
  refine (rowmin_apply _ _ _ _ p).trans ?_
  unfold nearest
  refine congrArg (fun f => (Finset.univ : Finset (Fin 1024)).fold min top f) (funext fun q => ?_)
  simp only [sqrt_apply, maximumf_apply, subf_apply, addf_apply, mulf_apply, broadcast_apply, colAlong_apply,
    rowDown_apply, cross_apply, shapeCast_self, truncf_apply]
  rw [flip_apply, col_apply, col_apply, rowsum_apply, rowsum_apply]
  rfl

theorem k1_pay2_apply (x0 x1 : Vec Ideal S1024x3 .f32) (xo : Vec Ideal S1024x1 .f32) (p : Fin 1024) (u : Fin 1) :
    k1_pay2 (F := Ideal) x0 x1 xo (ix2 p u) = min (xo (ix2 p u)) (nearest (fun d => x0 (ix2 p d)) x1) := by
  unfold k1_pay2
  refine (minimumf_apply _ _ (ix2 p u)).trans ?_
  rw [shapeCast_self, k1_pay1_apply]

end Cert.KernelIdeal.Tile

end
-- ==== Proof.IdealCall0Column.lean ====
/-
  What one call of the row-minimum kernel leaves in its result, over the extended reals: entry n of the result column
  is the nearest distance from row n of the first operand to the rows of the second.

  The grid point numbered t = 16 i + j pairs rows 1024 i … 1024 i + 1023 of the first operand with rows
  1024 j … 1024 j + 1023 of the second. After that point the result column's staging buffer holds, at entry p, the least
  distance from row 1024 i + p to the second operand's rows below 1024 (j + 1): at j = 0 it is this tile's least
  distance, at j ≠ 0 the smaller of the value held and this tile's, and a least value over consecutive stretches of
  rows is the least over their union. After j = 15 all 16384 rows have been seen and the block is written back; the
  blocks written back tile the result.
-/
import proofs.«111008_j70153995813078_1_alg».proof.Proof.IdealCall0
import proofs.«111008_j70153995813078_1_alg».proof.Proof.Payload
import proofs.«111008_j70153995813078_1_alg».proof.Proof.Nearest
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.Nearest Cert.KernelIdeal.Tile

variable (V : (c : Dev nD) → (b : Ref sig .tc) → Buf (Elt Ideal) ((c : Thread nD τ).loc b))

theorem zeroOffsets0 : (![0, 0] : Fin 2 → Nat) = fun _ => 0 := funext fun a => by fin_cases a <;> rfl

/-! ## What each kind of point leaves, as the body's payload -/

/-- A point with j = 0 leaves this tile's column: its one covering store's payload, whose loads read the whole blocks. -/
theorem first0_value (c : Dev nD) (i : grid0.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc0 : k0_cond1 i = 1#1) (hc1 : ¬ k0_cond2 i = 1#1) (x0 x1 : Vec Ideal S1024x3 .f32) :
    out0_A_2 c i a2 h2 a3 h3 a4 h4 hc0 hc1 x0 x1 = k0_pay1 x0 x1 := by
  unfold out0_A_2
  rw [View.read_writes_eq_canon _ _ _ (cover0_A_2 c i a2 h2 a3 h3 a4 h4 hc0 hc1 x0 x1)]
  unfold kernelRun0_A
  dsimp only
  sl_unfold_words
  rw [View.canon_unit_zero zeroOffsets0]
  simp only [View.readAt_eq_ld, h2.read_unread, h3.read_unread, View.ld_unit_zero (S := S1024x3) zeroOffsets0]

/-- A point with j ≠ 0 leaves the smaller of the column held and this tile's. -/
theorem later0_value (c : Dev nD) (i : grid0.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc0 : ¬ k0_cond1 i = 1#1) (hc1 : k0_cond2 i = 1#1) (x0 x1 : Vec Ideal S1024x3 .f32) (xo : Vec Ideal S1024x1 .f32) :
    out0_B_2 c i a2 h2 a3 h3 a4 h4 hc0 hc1 x0 x1 xo = k0_pay2 x0 x1 xo := by
  unfold out0_B_2
  rw [View.read_writes_eq_canon _ _ _ (cover0_B_2 c i a2 h2 a3 h3 a4 h4 hc0 hc1 x0 x1 xo)]
  unfold kernelRun0_B
  dsimp only
  sl_unfold_words
  rw [View.canon_unit_zero zeroOffsets0]
  simp only [View.readAt_eq_ld, h2.read_unread, h3.read_unread, h4.read_unread, View.ld_unit_zero (S := S1024x3) zeroOffsets0,
    View.ld_unit_zero (S := S1024x1) zeroOffsets0]

/-! ## The blocks, as rows of the two clouds -/

/-- The two operands as the call finds them: clouds of 16384 points. -/
abbrev ptsA0 (c : Dev nD) : (⟨2, ![16384, 3]⟩ : Shape).Idx → EReal := V c (Pipeline.arrRef spec0 0)
abbrev ptsB0 (c : Dev nD) : (⟨2, ![16384, 3]⟩ : Shape).Idx → EReal := V c (Pipeline.arrRef spec0 1)

/-- The printed index maps over the grid: point t = 16 i + j stages block i of the first operand and of the result,
    block j of the second. -/
theorem blockIdx0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- Row p of the first operand's block at point t is row 1024 (t / 16) + p of the cloud. -/
theorem blockA0 (c : Dev nD) (t : Fin cfg0.N) (p : Fin 1024) :
    (fun d : Fin 3 => (iblk0 V c 0 t : Vec Ideal S1024x3 .f32) (ix2 p d)) = row (ptsA0 V c) (1024 * (t.val / 16) + p.val) := by
  have hN : t.val < 256 := lt_of_lt_of_eq t.isLt (show cfg0.N = 256 from N_0)
  have hp : p.val < 1024 := p.isLt
  have hlt : 1024 * (t.val / 16) + p.val < 16384 := by omega
  rw [show 1024 * (t.val / 16) + p.val = (⟨1024 * (t.val / 16) + p.val, hlt⟩ : Fin 16384).val from rfl, row_fin]
  obtain ⟨e0, e1, -, -, -, -⟩ := blockIdx0 t
  funext d
  unfold iblk0
  rw [View.read_apply]
  show V c (Pipeline.arrRef spec0 0) (((cfg0.win 0).blk t).view.emb (ix2 p d)) = V c (Pipeline.arrRef spec0 0) (ix2 ⟨1024 * (t.val / 16) + p.val, hlt⟩ d)
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 3 + 1 * d.val = d.val; rw [e1]; omega

/-- Row q of the second operand's block at point t is row 1024 (t % 16) + q of the cloud. -/
theorem blockB0 (c : Dev nD) (t : Fin cfg0.N) (q : ℕ) (hq : q < 1024) :
    row (iblk0 V c 1 t : Vec Ideal S1024x3 .f32) q = row (ptsB0 V c) (1024 * (t.val % 16) + q) := by
  have hN : t.val < 256 := lt_of_lt_of_eq t.isLt (show cfg0.N = 256 from N_0)
  have hlt : 1024 * (t.val % 16) + q < 16384 := by omega
  rw [show q = (⟨q, hq⟩ : Fin 1024).val from rfl, row_fin,
    show 1024 * (t.val % 16) + (⟨q, hq⟩ : Fin 1024).val = (⟨1024 * (t.val % 16) + q, hlt⟩ : Fin 16384).val from rfl, row_fin]
  obtain ⟨-, -, e2, e3, -, -⟩ := blockIdx0 t
  funext d
  unfold iblk0
  rw [View.read_apply]
  show V c (Pipeline.arrRef spec0 1) (((cfg0.win 1).blk t).view.emb (ix2 ⟨q, hq⟩ d)) = V c (Pipeline.arrRef spec0 1) (ix2 ⟨1024 * (t.val % 16) + q, hlt⟩ d)
  congr 1
  funext a
  apply Fin.ext
  match a with
  | ⟨0, _⟩ => show win0_1.index t (0 : Fin 2) * 1024 + 1 * q = 1024 * (t.val % 16) + q; rw [e2]; omega
  | ⟨1, _⟩ => show win0_1.index t (1 : Fin 2) * 3 + 1 * d.val = d.val; rw [e3]; omega

/-- A least value depends only on the values below the bound. -/
theorem lowest_congr0 {f g : ℕ → EReal} {n : ℕ} (h : ∀ k, k < n → f k = g k) : lowest f n = lowest g n :=
  Finset.fold_congr fun k hk => h k (Finset.mem_range.mp hk)

/-- One tile's least distance from the point `a`: over the second operand's rows 1024 (t % 16) … + 1023. -/
theorem tile0_value (c : Dev nD) (t : Fin cfg0.N) (a : Fin 3 → EReal) :
    nearest a (iblk0 V c 1 t : Vec Ideal S1024x3 .f32)
      = lowest (fun k => gap a (row (ptsB0 V c) (1024 * (t.val % 16) + k))) 1024 := by
  rw [nearest_eq_lowest]
  exact lowest_congr0 fun k hk => by rw [blockB0 V c t k hk]

/-! ## The running column -/

/-- Entry p of the column after point n: the least distance from row 1024 (n / 16) + p of the first operand to the second
    operand's rows below 1024 (n % 16 + 1). -/
def colAt0 (c : Dev nD) (n p : ℕ) : EReal :=
  lowest (fun mm => gap (row (ptsA0 V c) (1024 * (n / 16) + p)) (row (ptsB0 V c) mm)) (1024 * (n % 16 + 1))

/-- What the result's staging buffer holds after each point is that running least value: by induction on the point. -/
theorem outsAt0_value (c : Dev nD) : ∀ (n : ℕ) (hn : n < cfg0.N) (p : Fin 1024) (u : Fin 1),
    (outsAt0 V c n hn : Vec Ideal S1024x1 .f32) (ix2 p u) = colAt0 V c n p.val
  | 0, hn, p, u => by
    rw [outsAt0_A V c ⟨0, hn⟩ rfl, first0_value, k0_pay1_apply, blockA0, tile0_value]
    unfold colAt0
    exact lowest_congr0 fun k _ => by simp
  | n + 1, hn, p, u => by
    by_cases h0 : (n + 1) % 16 = 0
    · rw [outsAt0_A V c ⟨n + 1, hn⟩ h0, first0_value, k0_pay1_apply, blockA0, tile0_value]
      unfold colAt0
      dsimp only
      rw [h0]
      exact lowest_congr0 fun k _ => by simp
    · rw [outsAt0_B V c ⟨n + 1, hn⟩ h0, later0_value, k0_pay2_apply, blockA0, tile0_value]
      show min ((outsAt0 V c n _ : Vec Ideal S1024x1 .f32) (ix2 p u)) _ = _
      rw [outsAt0_value c n _ p u]
      unfold colAt0
      dsimp only
      have hd : (n + 1) / 16 = n / 16 := by omega
      have hm : n % 16 + 1 = (n + 1) % 16 := by omega
      rw [hd, hm, show 1024 * ((n + 1) % 16 + 1) = 1024 * ((n + 1) % 16) + 1024 from by ring, lowest_add]

end Cert.KernelIdeal.Rows

end
-- ==== Proof.IdealCall0Result.lean ====
/-
  What one call of the row-minimum kernel leaves in its result array: the column whose entry n is the nearest distance
  from row n of the first operand to the rows of the second. A point with j = 15 has seen all 16384 rows of the second
  operand and writes its block of 1024 entries back; the sixteen blocks written back tile the result.
-/
import proofs.«111008_j70153995813078_1_alg».proof.Proof.IdealCall0Column

set_option maxRecDepth 16384

noncomputable section

namespace Cert.KernelIdeal.Rows

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.Nearest Cert.KernelIdeal.Tile

variable (V : (c : Dev nD) → (b : Ref sig .tc) → Buf (Elt Ideal) ((c : Thread nD τ).loc b))

/-! ## The result array -/

/-- The result column: entry n is the nearest distance from row n of the first operand to the second operand's rows. -/
def column0 (c : Dev nD) : (⟨2, ![16384, 1]⟩ : Shape).Idx → EReal :=
  fun i => nearest (row (ptsA0 V c) (i 0).val) (ptsB0 V c)

/-- A column known entry by entry at (p, 0) is known at every index. -/
theorem entryOfRows0 (X : (⟨2, ![1024, 1]⟩ : Shape).Idx → EReal) (g : ℕ → EReal)
    (h : ∀ (p : Fin 1024) (u : Fin 1), X (ix2 p u) = g p.val) (j : (⟨2, ![1024, 1]⟩ : Shape).Idx) : X j = g (j 0).val := by
  rw [eq_ix2 j]; exact h (j 0) (j 1)

/-- A point that writes back (j = 15) writes block t / 16 of the result column. -/
theorem flushedCol0 (c : Dev nD) (t : Fin cfg0.N) (hf : (cfg0.win 2).flush t = true) :
    (dat0 V c).flushed 2 t = ((cfg0.win 2).blk t).view.read (Elt Ideal) (column0 V c) := by
  have h15 : t.val % 16 = 15 := (flush0_2 t).mp hf
  obtain ⟨-, -, -, -, e4, e5⟩ := blockIdx0 t
  show (cfg0.win 2).cut (grid0.coords t) ((dat0 V c).after 2 t) = _
  rw [after0_2]
  funext j
  rw [View.read_apply]
  have h1 : (cfg0.win 2).cut (grid0.coords t) (outsAt0 V c t.val t.isLt) j = colAt0 V c t.val (j 0).val :=
    entryOfRows0 (outsAt0 V c t.val t.isLt) (colAt0 V c t.val) (outsAt0_value V c t.val t.isLt) j
  rw [h1, cast_eq]
  unfold column0
  have hrow : ((((cfg0.win 2).blk t).view.emb j) 0).val = win0_2.index t (0 : Fin 2) * 1024 + 1 * (j 0).val := rfl
  rw [hrow, e4, nearest_eq_lowest]
  unfold colAt0
  rw [h15, show 1024 * (t.val / 16) + (j 0).val = t.val / 16 * 1024 + 1 * (j 0).val from by ring]

/-- Every entry of the result lies in the block some writing-back point covers. -/
theorem coverCol0 (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 256 := N_0
  let t : Fin cfg0.N := ⟨16 * ((i 0).val / 1024) + 15, by rw [hN]; omega⟩
  have htv : t.val = 16 * ((i 0).val / 1024) + 15 := rfl
  obtain ⟨-, -, -, -, e4, e5⟩ := blockIdx0 t
  refine ⟨t, (flush0_2 t).mpr (by rw [htv]; omega), ?_⟩
  show i ∈ ((View.whole main_v2).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4, htv]; omega
  | ⟨1, _⟩ =>
    show win0_2.index t (1 : Fin 2) * 1 ≤ (i 1).val ∧ (i 1).val < win0_2.index t (1 : Fin 2) * 1 + 1
    rw [e5]; omega

/-- So the result array ends holding the column of nearest distances. -/
theorem finalCol0 (c : Dev nD) : (dat0 V c).arrAt 2 cfg0.N = column0 V c :=
  (dat0 V c).arrAt_eq_of_cover 2 (column0 V c) (flushedCol0 V c) (coverCol0)

end Cert.KernelIdeal.Rows

end
-- ==== Proof.IdealCall1Column.lean ====
/-
  What one call of the row-minimum kernel leaves in its result, over the extended reals: entry n of the result column
  is the nearest distance from row n of the first operand to the rows of the second.

  The grid point numbered t = 16 i + j pairs rows 1024 i … 1024 i + 1023 of the first operand with rows
  1024 j … 1024 j + 1023 of the second. After that point the result column's staging buffer holds, at entry p, the least
  distance from row 1024 i + p to the second operand's rows below 1024 (j + 1): at j = 0 it is this tile's least
  distance, at j ≠ 0 the smaller of the value held and this tile's, and a least value over consecutive stretches of
  rows is the least over their union. After j = 15 all 16384 rows have been seen and the block is written back; the
  blocks written back tile the result.
-/
import proofs.«111008_j70153995813078_1_alg».proof.Proof.IdealCall1
import proofs.«111008_j70153995813078_1_alg».proof.Proof.Payload
import proofs.«111008_j70153995813078_1_alg».proof.Proof.Nearest
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.Nearest Cert.KernelIdeal.Tile

variable (V : (c : Dev nD) → (b : Ref sig .tc) → Buf (Elt Ideal) ((c : Thread nD τ).loc b))

theorem zeroOffsets1 : (![0, 0] : Fin 2 → Nat) = fun _ => 0 := funext fun a => by fin_cases a <;> rfl

/-! ## What each kind of point leaves, as the body's payload -/

/-- A point with j = 0 leaves this tile's column: its one covering store's payload, whose loads read the whole blocks. -/
theorem first1_value (c : Dev nD) (i : grid1.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc0 : k1_cond1 i = 1#1) (hc1 : ¬ k1_cond2 i = 1#1) (x0 x1 : Vec Ideal S1024x3 .f32) :
    out1_A_2 c i a2 h2 a3 h3 a4 h4 hc0 hc1 x0 x1 = k1_pay1 x0 x1 := by
  unfold out1_A_2
  rw [View.read_writes_eq_canon _ _ _ (cover1_A_2 c i a2 h2 a3 h3 a4 h4 hc0 hc1 x0 x1)]
  unfold kernelRun1_A
  dsimp only
  sl_unfold_words
  rw [View.canon_unit_zero zeroOffsets1]
  simp only [View.readAt_eq_ld, h2.read_unread, h3.read_unread, View.ld_unit_zero (S := S1024x3) zeroOffsets1]

/-- A point with j ≠ 0 leaves the smaller of the column held and this tile's. -/
theorem later1_value (c : Dev nD) (i : grid1.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc0 : ¬ k1_cond1 i = 1#1) (hc1 : k1_cond2 i = 1#1) (x0 x1 : Vec Ideal S1024x3 .f32) (xo : Vec Ideal S1024x1 .f32) :
    out1_B_2 c i a2 h2 a3 h3 a4 h4 hc0 hc1 x0 x1 xo = k1_pay2 x0 x1 xo := by
  unfold out1_B_2
  rw [View.read_writes_eq_canon _ _ _ (cover1_B_2 c i a2 h2 a3 h3 a4 h4 hc0 hc1 x0 x1 xo)]
  unfold kernelRun1_B
  dsimp only
  sl_unfold_words
  rw [View.canon_unit_zero zeroOffsets1]
  simp only [View.readAt_eq_ld, h2.read_unread, h3.read_unread, h4.read_unread, View.ld_unit_zero (S := S1024x3) zeroOffsets1,
    View.ld_unit_zero (S := S1024x1) zeroOffsets1]

/-! ## The blocks, as rows of the two clouds -/

/-- The two operands as the call finds them: clouds of 16384 points. -/
abbrev ptsA1 (c : Dev nD) : (⟨2, ![16384, 3]⟩ : Shape).Idx → EReal := V c (Pipeline.arrRef spec1 0)
abbrev ptsB1 (c : Dev nD) : (⟨2, ![16384, 3]⟩ : Shape).Idx → EReal := V c (Pipeline.arrRef spec1 1)

/-- The printed index maps over the grid: point t = 16 i + j stages block i of the first operand and of the result,
    block j of the second. -/
theorem blockIdx1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

/-- Row p of the first operand's block at point t is row 1024 (t / 16) + p of the cloud. -/
theorem blockA1 (c : Dev nD) (t : Fin cfg1.N) (p : Fin 1024) :
    (fun d : Fin 3 => (iblk1 V c 0 t : Vec Ideal S1024x3 .f32) (ix2 p d)) = row (ptsA1 V c) (1024 * (t.val / 16) + p.val) := by
  have hN : t.val < 256 := lt_of_lt_of_eq t.isLt (show cfg1.N = 256 from N_1)
  have hp : p.val < 1024 := p.isLt
  have hlt : 1024 * (t.val / 16) + p.val < 16384 := by omega
  rw [show 1024 * (t.val / 16) + p.val = (⟨1024 * (t.val / 16) + p.val, hlt⟩ : Fin 16384).val from rfl, row_fin]
  obtain ⟨e0, e1, -, -, -, -⟩ := blockIdx1 t
  funext d
  unfold iblk1
  rw [View.read_apply]
  show V c (Pipeline.arrRef spec1 0) (((cfg1.win 0).blk t).view.emb (ix2 p d)) = V c (Pipeline.arrRef spec1 0) (ix2 ⟨1024 * (t.val / 16) + p.val, hlt⟩ d)
  congr 1
  funext a
  apply Fin.ext
  match a with
  | ⟨0, _⟩ => show win1_0.index t (0 : Fin 2) * 1024 + 1 * p.val = 1024 * (t.val / 16) + p.val; rw [e0]; omega
  | ⟨1, _⟩ => show win1_0.index t (1 : Fin 2) * 3 + 1 * d.val = d.val; rw [e1]; omega

/-- Row q of the second operand's block at point t is row 1024 (t % 16) + q of the cloud. -/
theorem blockB1 (c : Dev nD) (t : Fin cfg1.N) (q : ℕ) (hq : q < 1024) :
    row (iblk1 V c 1 t : Vec Ideal S1024x3 .f32) q = row (ptsB1 V c) (1024 * (t.val % 16) + q) := by
  have hN : t.val < 256 := lt_of_lt_of_eq t.isLt (show cfg1.N = 256 from N_1)
  have hlt : 1024 * (t.val % 16) + q < 16384 := by omega
  rw [show q = (⟨q, hq⟩ : Fin 1024).val from rfl, row_fin,
    show 1024 * (t.val % 16) + (⟨q, hq⟩ : Fin 1024).val = (⟨1024 * (t.val % 16) + q, hlt⟩ : Fin 16384).val from rfl, row_fin]
  obtain ⟨-, -, e2, e3, -, -⟩ := blockIdx1 t
  funext d
  unfold iblk1
  rw [View.read_apply]
  show V c (Pipeline.arrRef spec1 1) (((cfg1.win 1).blk t).view.emb (ix2 ⟨q, hq⟩ d)) = V c (Pipeline.arrRef spec1 1) (ix2 ⟨1024 * (t.val % 16) + q, hlt⟩ d)
  congr 1
  funext a
  apply Fin.ext
  match a with
  | ⟨0, _⟩ => show win1_1.index t (0 : Fin 2) * 1024 + 1 * q = 1024 * (t.val % 16) + q; rw [e2]; omega
  | ⟨1, _⟩ => show win1_1.index t (1 : Fin 2) * 3 + 1 * d.val = d.val; rw [e3]; omega

/-- A least value depends only on the values below the bound. -/
theorem lowest_congr1 {f g : ℕ → EReal} {n : ℕ} (h : ∀ k, k < n → f k = g k) : lowest f n = lowest g n :=
  Finset.fold_congr fun k hk => h k (Finset.mem_range.mp hk)

/-- One tile's least distance from the point `a`: over the second operand's rows 1024 (t % 16) … + 1023. -/
theorem tile1_value (c : Dev nD) (t : Fin cfg1.N) (a : Fin 3 → EReal) :
    nearest a (iblk1 V c 1 t : Vec Ideal S1024x3 .f32)
      = lowest (fun k => gap a (row (ptsB1 V c) (1024 * (t.val % 16) + k))) 1024 := by
  rw [nearest_eq_lowest]
  exact lowest_congr1 fun k hk => by rw [blockB1 V c t k hk]

/-! ## The running column -/

/-- Entry p of the column after point n: the least distance from row 1024 (n / 16) + p of the first operand to the second
    operand's rows below 1024 (n % 16 + 1). -/
def colAt1 (c : Dev nD) (n p : ℕ) : EReal :=
  lowest (fun mm => gap (row (ptsA1 V c) (1024 * (n / 16) + p)) (row (ptsB1 V c) mm)) (1024 * (n % 16 + 1))

/-- What the result's staging buffer holds after each point is that running least value: by induction on the point. -/
theorem outsAt1_value (c : Dev nD) : ∀ (n : ℕ) (hn : n < cfg1.N) (p : Fin 1024) (u : Fin 1),
    (outsAt1 V c n hn : Vec Ideal S1024x1 .f32) (ix2 p u) = colAt1 V c n p.val
  | 0, hn, p, u => by
    rw [outsAt1_A V c ⟨0, hn⟩ rfl, first1_value, k1_pay1_apply, blockA1, tile1_value]
    unfold colAt1
    exact lowest_congr1 fun k _ => by simp
  | n + 1, hn, p, u => by
    by_cases h0 : (n + 1) % 16 = 0
    · rw [outsAt1_A V c ⟨n + 1, hn⟩ h0, first1_value, k1_pay1_apply, blockA1, tile1_value]
      unfold colAt1
      dsimp only
      rw [h0]
      exact lowest_congr1 fun k _ => by simp
    · rw [outsAt1_B V c ⟨n + 1, hn⟩ h0, later1_value, k1_pay2_apply, blockA1, tile1_value]
      show min ((outsAt1 V c n _ : Vec Ideal S1024x1 .f32) (ix2 p u)) _ = _
      rw [outsAt1_value c n _ p u]
      unfold colAt1
      dsimp only
      have hd : (n + 1) / 16 = n / 16 := by omega
      have hm : n % 16 + 1 = (n + 1) % 16 := by omega
      rw [hd, hm, show 1024 * ((n + 1) % 16 + 1) = 1024 * ((n + 1) % 16) + 1024 from by ring, lowest_add]

end Cert.KernelIdeal.Rows

end
-- ==== Proof.IdealCall1Result.lean ====
/-
  What one call of the row-minimum kernel leaves in its result array: the column whose entry n is the nearest distance
  from row n of the first operand to the rows of the second. A point with j = 15 has seen all 16384 rows of the second
  operand and writes its block of 1024 entries back; the sixteen blocks written back tile the result.
-/
import proofs.«111008_j70153995813078_1_alg».proof.Proof.IdealCall1Column

set_option maxRecDepth 16384

noncomputable section

namespace Cert.KernelIdeal.Rows

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.Nearest Cert.KernelIdeal.Tile

variable (V : (c : Dev nD) → (b : Ref sig .tc) → Buf (Elt Ideal) ((c : Thread nD τ).loc b))

/-! ## The result array -/

/-- The result column: entry n is the nearest distance from row n of the first operand to the second operand's rows. -/
def column1 (c : Dev nD) : (⟨2, ![16384, 1]⟩ : Shape).Idx → EReal :=
  fun i => nearest (row (ptsA1 V c) (i 0).val) (ptsB1 V c)

/-- A column known entry by entry at (p, 0) is known at every index. -/
theorem entryOfRows1 (X : (⟨2, ![1024, 1]⟩ : Shape).Idx → EReal) (g : ℕ → EReal)
    (h : ∀ (p : Fin 1024) (u : Fin 1), X (ix2 p u) = g p.val) (j : (⟨2, ![1024, 1]⟩ : Shape).Idx) : X j = g (j 0).val := by
  rw [eq_ix2 j]; exact h (j 0) (j 1)

/-- A point that writes back (j = 15) writes block t / 16 of the result column. -/
theorem flushedCol1 (c : Dev nD) (t : Fin cfg1.N) (hf : (cfg1.win 2).flush t = true) :
    (dat1 V c).flushed 2 t = ((cfg1.win 2).blk t).view.read (Elt Ideal) (column1 V c) := by
  have h15 : t.val % 16 = 15 := (flush1_2 t).mp hf
  obtain ⟨-, -, -, -, e4, e5⟩ := blockIdx1 t
  show (cfg1.win 2).cut (grid1.coords t) ((dat1 V c).after 2 t) = _
  rw [after1_2]
  funext j
  rw [View.read_apply]
  have h1 : (cfg1.win 2).cut (grid1.coords t) (outsAt1 V c t.val t.isLt) j = colAt1 V c t.val (j 0).val :=
    entryOfRows1 (outsAt1 V c t.val t.isLt) (colAt1 V c t.val) (outsAt1_value V c t.val t.isLt) j
  rw [h1, cast_eq]
  unfold column1
  have hrow : ((((cfg1.win 2).blk t).view.emb j) 0).val = win1_2.index t (0 : Fin 2) * 1024 + 1 * (j 0).val := rfl
  rw [hrow, e4, nearest_eq_lowest]
  unfold colAt1
  rw [h15, show 1024 * (t.val / 16) + (j 0).val = t.val / 16 * 1024 + 1 * (j 0).val from by ring]

/-- Every entry of the result lies in the block some writing-back point covers. -/
theorem coverCol1 (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  have hN : cfg1.N = 256 := N_1
  let t : Fin cfg1.N := ⟨16 * ((i 0).val / 1024) + 15, by rw [hN]; omega⟩
  have htv : t.val = 16 * ((i 0).val / 1024) + 15 := rfl
  obtain ⟨-, -, -, -, e4, e5⟩ := blockIdx1 t
  refine ⟨t, (flush1_2 t).mpr (by rw [htv]; omega), ?_⟩
  show i ∈ ((View.whole main_v3).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4, htv]; omega
  | ⟨1, _⟩ =>
    show win1_2.index t (1 : Fin 2) * 1 ≤ (i 1).val ∧ (i 1).val < win1_2.index t (1 : Fin 2) * 1 + 1
    rw [e5]; omega

/-- So the result array ends holding the column of nearest distances. -/
theorem finalCol1 (c : Dev nD) : (dat1 V c).arrAt 2 cfg1.N = column1 V c :=
  (dat1 V c).arrAt_eq_of_cover 2 (column1 V c) (flushedCol1 V c) (coverCol1)

end Cert.KernelIdeal.Rows

end
-- ==== Proof.Grouping.lean ====
/-
  A list of 16384 values kept as a column, 16384 rows of one entry each, and laid out again as 2048 groups of 8
  consecutive values. Entry (b, r) of the groups is the column's entry in row 8 b + r: both stand at position
  8 b + r when the entries are counted row by row.
-/
import proofs.«111008_j70153995813078_1_alg».proof.Proof.Nearest
import Idealize.ShloMosaic.Lib.ValueIdx
import Idealize.ShloMosaic.Lib.Pipeline.Value

noncomputable section

namespace Cert.Nearest

open Idealize.ShloMosaic Idealize.ShloMosaic.ValueIdx

/-- A column whose row `n` holds `f n`, laid out in 2048 groups of 8, is the grouped list of `f`. -/
theorem grouped_of_column (f : ℕ → EReal) (col : (⟨2, ![16384, 1]⟩ : Shape).Idx → EReal) (h : ∀ i, col i = f (i 0).val) (hs : (⟨2, ![16384, 1]⟩ : Shape).ShapeCasts ⟨2, ![2048, 8]⟩) : shapeCast (⟨2, ![2048, 8]⟩ : Shape) col hs = grouped f := by
  funext i
  have h0 : (i 0).val < 2048 := (i 0).isLt
  have h1 : (i 1).val < 8 := (i 1).isLt
  have hn : 8 * (i 0).val + (i 1).val < 16384 := by omega
  rw [shapeCast_apply col hs i (ix2 (⟨8 * (i 0).val + (i 1).val, hn⟩ : Fin 16384) (0 : Fin 1))
    (by
      rewrite [Shape.rowMajor_val_two, Shape.rowMajor_val_two]
      show (8 * (i 0).val + (i 1).val) * 1 + 0 = (i 0).val * 8 + (i 1).val
      omega), h]
  rfl

end Cert.Nearest

end
-- ==== Proof.IdealValue.lean ====
/-
  The idealized kernel program's result, over the extended reals.

  The two arguments flattened are the clouds X and Y. The first call leaves the column of nearest distances from the
  points of X to Y, the second call — the same kernel with the operands exchanged — the column of nearest distances from
  the points of Y to X. The host then lays each column out in 2048 groups of 8 and averages: the result is the loss of
  the two directions' nearest distances.
-/
import proofs.«111008_j70153995813078_1_alg».proof.Proof.IdealMain
import proofs.«111008_j70153995813078_1_alg».proof.Proof.IdealCall0Result
import proofs.«111008_j70153995813078_1_alg».proof.Proof.IdealCall1Result
import proofs.«111008_j70153995813078_1_alg».proof.Proof.Grouping
import Idealize.ShloMosaic.Lib.StableHlo.Run

set_option maxRecDepth 16384

noncomputable section

namespace Cert.KernelIdeal.Rows

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen Cert.Nearest

variable (m : (ℓ : Loc nD τ sig) → Buf (Elt Ideal) ℓ) (ρ : Dev nD → PrngReg)

/-- The arguments flattened to clouds of 16384 points. -/
abbrev cloudX (c : Dev nD) : (⟨2, ![16384, 3]⟩ : Shape).Idx → EReal :=
  shapeCast S16384x3 (m ((c : Thread nD τ).loc main_arg0)) Facts₀.shapeCasts_S2048x8x3_S16384x3
abbrev cloudY (c : Dev nD) : (⟨2, ![16384, 3]⟩ : Shape).Idx → EReal :=
  shapeCast S16384x3 (m ((c : Thread nD τ).loc main_arg1)) Facts₀.shapeCasts_S2048x8x3_S16384x3

/-! ## The two reshapes -/

theorem entry_v0 (c : Dev nD) : V1 m ρ c main_v0 = cloudX m c := by
  show StableHlo.after hostOps0 (W0 m ρ c) (Proc.devRef .tc main_v0) = _
  dsimp only [hostOps0]
  after_results
  rfl
theorem entry_v1 (c : Dev nD) : V1 m ρ c main_v1 = cloudY m c := by
  show StableHlo.after hostOps0 (W0 m ρ c) (Proc.devRef .tc main_v1) = _
  dsimp only [hostOps0]
  after_results
  rfl

/-! ## The first call: nearest distances from X to Y -/

theorem firstA (c : Dev nD) : ptsA0 (V1 m ρ) c = cloudX m c := entry_v0 m ρ c
theorem firstB (c : Dev nD) : ptsB0 (V1 m ρ) c = cloudY m c := entry_v1 m ρ c

/-- After the first call its result holds the nearest distances from X's points to Y. -/
theorem after_first_v2 (c : Dev nD) : V2 m ρ c main_v2 = fun i : S16384x1.Idx => fromX (cloudX m c) (cloudY m c) (i 0).val := by
  refine ((W2_arr m ρ c 2).trans (finalCol0 (V1 m ρ) c)).trans ?_
  unfold column0
  rw [firstA, firstB]
  rfl
/-- Its operands are as entered. -/
theorem after_first_v0 (c : Dev nD) : V2 m ρ c main_v0 = cloudX m c :=
  ((W2_arr m ρ c 0).trans (((dat0 (V1 m ρ) c).arrAt_in 0 rfl _).trans (A_eq0 (V1 m ρ) c 0))).trans (entry_v0 m ρ c)
theorem after_first_v1 (c : Dev nD) : V2 m ρ c main_v1 = cloudY m c :=
  ((W2_arr m ρ c 1).trans (((dat0 (V1 m ρ) c).arrAt_in 1 rfl _).trans (A_eq0 (V1 m ρ) c 1))).trans (entry_v1 m ρ c)

/-! ## The second call: nearest distances from Y to X -/

theorem secondA (c : Dev nD) : ptsA1 (V2 m ρ) c = cloudY m c := after_first_v1 m ρ c
theorem secondB (c : Dev nD) : ptsB1 (V2 m ρ) c = cloudX m c := after_first_v0 m ρ c

theorem after_second_v3 (c : Dev nD) : V3 m ρ c main_v3 = fun i : S16384x1.Idx => fromY (cloudX m c) (cloudY m c) (i 0).val := by
  refine ((W3_arr m ρ c 2).trans (finalCol1 (V2 m ρ) c)).trans ?_
  unfold column1
  rw [secondA, secondB]
  rfl
/-- The second call does not touch the first call's result. -/
theorem after_second_v2 (c : Dev nD) : V3 m ρ c main_v2 = fun i : S16384x1.Idx => fromX (cloudX m c) (cloudY m c) (i 0).val :=
  (W3_of_ne m ρ c main_v2 (by decide)).trans (after_first_v2 m ρ c)

/-! ## The averaging -/

/-- The host's last 21 operations compute the loss of the two columns laid out in groups of 8. -/
theorem end_v16 (c : Dev nD) :
    W4 m ρ c (Proc.devRef .tc main_v16)
      = loss Facts₀.reducesTo_S2048x8_S2048_d1 Facts₀.h_S_ Facts₀.bcast_S_S2048 Facts₀.reducesTo_S2048_S_d0
          (shapeCast S2048x8 (V3 m ρ c main_v2) Facts₀.shapeCasts_S16384x1_S2048x8)
          (shapeCast S2048x8 (V3 m ρ c main_v3) Facts₀.shapeCasts_S16384x1_S2048x8) := by
  show StableHlo.after hostOps2 (W3 m ρ c) (Proc.devRef .tc main_v16) = _
  dsimp only [hostOps2]
  after_results
  rfl

/-- The result: the loss of the two directions' nearest distances. -/
theorem result_v16 (c : Dev nD) :
    W4 m ρ c (Proc.devRef .tc main_v16)
      = loss Facts₀.reducesTo_S2048x8_S2048_d1 Facts₀.h_S_ Facts₀.bcast_S_S2048 Facts₀.reducesTo_S2048_S_d0
          (grouped (fromX (cloudX m c) (cloudY m c))) (grouped (fromY (cloudX m c) (cloudY m c))) := by
  rw [end_v16, after_second_v2, after_second_v3,
    grouped_of_column (fromX (cloudX m c) (cloudY m c)) _ (fun _ => rfl),
    grouped_of_column (fromY (cloudX m c) (cloudY m c)) _ (fun _ => rfl)]

/-- The run, read: the result buffer at the loss, both arguments as launched. -/
theorem run_value : θ_run defs (onTc (τ := τ) (main (F := Ideal))) ⟨m, fun _ => 0, ρ⟩ (fun r => ∀ c : Dev nD,
      r.2.mem ((c.tc : Thread nD τ).loc main_v16)
        = loss Facts₀.reducesTo_S2048x8_S2048_d1 Facts₀.h_S_ Facts₀.bcast_S_S2048 Facts₀.reducesTo_S2048_S_d0
            (grouped (fromX (cloudX m c) (cloudY m c))) (grouped (fromY (cloudX m c) (cloudY m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v16 (by decide))).trans (result_v16 m ρ c),
     (h c _ (mem_uc main_arg0 (by decide))).trans (W4_main_arg0 m ρ c),
     (h c _ (mem_uc main_arg1 (by decide))).trans (W4_main_arg1 m ρ c)⟩) (run_all m ρ)

end Cert.KernelIdeal.Rows

end
-- ==== Proof.RefSide.lean ====
/-
  What the reference computes, over the extended reals: from the two clouds X and Y (the arguments flattened to
  16384 points each) the table of all pairwise distances √ max(‖x_n‖² + ‖y_m‖² − 2 x_n·y_m, 0); its least value along
  each row n is the nearest distance from x_n to Y, its least value along each column m the nearest distance from y_m
  to X (the distance being symmetric); each list is laid out in 2048 groups of 8 and averaged, the two averages added.
-/
import proofs.«111008_j70153995813078_1_alg».proof.Proof.Gen.ReferenceIdeal.Run
import proofs.«111008_j70153995813078_1_alg».proof.Proof.Gen.ReferenceIdeal.Read
import proofs.«111008_j70153995813078_1_alg».proof.Proof.Nearest
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.Nearest

variable [Cert.ReferenceIdeal.Facts]

/-- The first argument flattened to a cloud of 16384 points, and the second. -/
abbrev cloud (x : FVec Ideal S2048x8x3 .f32) : FVec Ideal S16384x3 .f32 :=
  shapeCast S16384x3 x Facts₀.shapeCasts_S2048x8x3_S16384x3

/-- The table of pairwise distances at row `p`, column `q`: the distance between point `p` of the first cloud and
    point `q` of the second. The two squared norms are sums from zero over the three coordinates, the cross term the
    product of the clouds read at `(p, k)` and `(q, k)`. -/
theorem table_entry (x0 x1 : FVec Ideal S2048x8x3 .f32) (p q : Fin 16384) :
    Read.val_main_v17 (F := Ideal) x0 x1 (ix2 p q)
      = gap (fun d => cloud x0 (ix2 p d)) (fun d => cloud x1 (ix2 q d)) := by
  rw [Read.val_main_v17_apply, Read.val_main_v16_apply, Read.val_main_v14_apply, Read.val_main_v10_apply,
    Read.val_main_v13_apply, Read.val_main_v15_apply, Read.val_main_cst_2_apply, Read.val_main_v12_apply,
    Read.val_main_cst_1_apply, Read.val_main_v8_apply, Read.val_main_v6_apply, Read.val_main_v3_apply,
    Read.val_main_v9_apply, Read.val_main_v7_apply, Read.val_main_v5_apply, Read.val_main_v11_apply,
    Read.val_main_cst_apply, Read.val_main_cst_0_apply]
  have e1 : ∀ k : Fin 3, Read.idx_main_v3 (Read.idx_main_v6 (Read.idx_main_v8 (ix2 p q))) k = ix2 p k :=
    fun k => funext fun a => by match a with | ⟨0, _⟩ => rfl | ⟨1, _⟩ => rfl
  have e2 : ∀ k : Fin 3, Read.idx_main_v5 (Read.idx_main_v7 (Read.idx_main_v9 (ix2 p q))) k = ix2 q k :=
    fun k => funext fun a => by match a with | ⟨0, _⟩ => rfl | ⟨1, _⟩ => rfl
  have e3 : ∀ k : Fin 3, Read.lidx_main_v11 (ix2 p q) k = ix2 p k :=
    fun k => funext fun a => by match a with | ⟨0, _⟩ => rfl | ⟨1, _⟩ => rfl
  have e4 : ∀ k : Fin 3, Read.ridx_main_v11 (ix2 p q) k = ix2 q k :=
    fun k => funext fun a => by match a with | ⟨0, _⟩ => rfl | ⟨1, _⟩ => rfl
  unfold gap
  simp only [e1, e2, e3, e4, Read.val_main_v2_apply, Read.val_main_v4_apply, Ideal.ofBits_def, Ideal.ofBits_zero_f32,
    zero_add, Ideal.addf_def, Ideal.subf_def, Ideal.mulf_def, Ideal.maximumf_def, Ideal.hostUnary_sqrt_def]
  rfl

/-- A least value taken with the host's minimum from the host's +∞ is the least value of the specification. -/
theorem fold_host_min {n : ℕ} (f g : Fin n → EReal) (hfg : ∀ m, f m = g m) :
    (Finset.univ : Finset (Fin n)).fold (FloatOps.minimumf (F := Ideal) (φ := .f32))
        (Read.val_main_cst_3 (F := Ideal) (Shape.Idx.first Gen.h_S_)) f
      = (Finset.univ : Finset (Fin n)).fold min top g := by
  rw [show f = g from funext hfg]
  rfl

/-- The least value along row `n` of the table is the nearest distance from point `n` of the first cloud to the
    second cloud. -/
theorem rows_least (x0 x1 : FVec Ideal S2048x8x3 .f32) (n : Fin 16384) :
    Read.val_main_v18 (F := Ideal) x0 x1 (ix1 n) = fromX (cloud x0) (cloud x1) n.val := by
  have h : Shape.Reduces S16384x16384 [1] S16384 := by decide
  unfold Read.val_main_v18
  have key := Host.reduce_eq_fold_single (FloatOps.minimumf (F := Ideal) (φ := .f32))
    (Read.val_main_v17 (F := Ideal) x0 x1) (Read.val_main_cst_3 (F := Ideal)) Gen.reducesTo_S16384x16384_S16384_d1 h
    Gen.h_S_ (ix1 n)
  refine key.trans ?_
  unfold fromX nearest
  rw [row_fin]
  refine fold_host_min (n := 16384) _ _ (fun m => ?_)
  have hl : h.lift (ix1 n) m = ix2 n m :=
    funext fun a => by match a with | ⟨0, _⟩ => rfl | ⟨1, _⟩ => rfl
  exact (congrArg (Read.val_main_v17 (F := Ideal) x0 x1) hl).trans (table_entry x0 x1 n m)

/-- A least value taken with the host's minimum from the second reduction's +∞ likewise. -/
theorem fold_host_min' {n : ℕ} (f g : Fin n → EReal) (hfg : ∀ m, f m = g m) :
    (Finset.univ : Finset (Fin n)).fold (FloatOps.minimumf (F := Ideal) (φ := .f32))
        (Read.val_main_cst_6 (F := Ideal) (Shape.Idx.first Gen.h_S_)) f
      = (Finset.univ : Finset (Fin n)).fold min top g := by
  rw [show f = g from funext hfg]
  rfl

/-- The least value along column `m` of the table is the nearest distance from point `m` of the second cloud to the
    first cloud: the entry at `(k, m)` is the distance from point `k` of the first cloud to point `m` of the second,
    which is the distance the other way round. -/
theorem cols_least (x0 x1 : FVec Ideal S2048x8x3 .f32) (m : Fin 16384) :
    Read.val_main_v23 (F := Ideal) x0 x1 (ix1 m) = fromY (cloud x0) (cloud x1) m.val := by
  have h : Shape.Reduces S16384x16384 [0] S16384 := by decide
  unfold Read.val_main_v23
  have key := Host.reduce_eq_fold_single (FloatOps.minimumf (F := Ideal) (φ := .f32))
    (Read.val_main_v17 (F := Ideal) x0 x1) (Read.val_main_cst_6 (F := Ideal)) Gen.reducesTo_S16384x16384_S16384_d0 h
    Gen.h_S_ (ix1 m)
  refine key.trans ?_
  unfold fromY nearest
  rw [row_fin]
  refine fold_host_min' (n := 16384) _ _ (fun k => ?_)
  have hl : h.lift (ix1 m) k = ix2 k m :=
    funext fun a => by match a with | ⟨0, _⟩ => rfl | ⟨1, _⟩ => rfl
  exact ((congrArg (Read.val_main_v17 (F := Ideal) x0 x1) hl).trans (table_entry x0 x1 k m)).trans (gap_comm _ _)

/-- Entry `(b, r)` of a length-16384 list laid out in 2048 groups of 8 is its entry `8 b + r`. -/
theorem group_index (i : S2048x8.Idx) (hn : 8 * (i 0).val + (i 1).val < 16384) :
    Read.idx_main_v19 i = ix1 (⟨8 * (i 0).val + (i 1).val, hn⟩ : Fin 16384) :=
  funext fun a => by
    match a with
    | ⟨0, _⟩ => exact Fin.ext (by show (i 0).val * 8 + (i 1).val = 8 * (i 0).val + (i 1).val; omega)

/-- The first direction's nearest distances, laid out in groups of 8. -/
theorem near_rows (x0 x1 : FVec Ideal S2048x8x3 .f32) :
    Read.val_main_v19 (F := Ideal) x0 x1 = grouped (fromX (cloud x0) (cloud x1)) := by
  funext i
  have h0 : (i 0).val < 2048 := (i 0).isLt
  have h1 : (i 1).val < 8 := (i 1).isLt
  have hn : 8 * (i 0).val + (i 1).val < 16384 := by omega
  rw [Read.val_main_v19_apply, group_index i hn, rows_least]
  rfl

/-- The second direction's nearest distances, laid out in groups of 8. -/
theorem near_cols (x0 x1 : FVec Ideal S2048x8x3 .f32) :
    Read.val_main_v24 (F := Ideal) x0 x1 = grouped (fromY (cloud x0) (cloud x1)) := by
  funext i
  have h0 : (i 0).val < 2048 := (i 0).isLt
  have h1 : (i 1).val < 8 := (i 1).isLt
  have hn : 8 * (i 0).val + (i 1).val < 16384 := by omega
  rw [Read.val_main_v24_apply, show Read.idx_main_v24 i = Read.idx_main_v19 i from rfl, group_index i hn, cols_least]
  rfl

/-- The reference's result is the loss of the two directions' nearest distances. -/
theorem result_eq (x0 x1 : FVec Ideal S2048x8x3 .f32) :
    Cert.ReferenceIdeal.Read.val_main_v32 (F := Ideal) x0 x1
      = loss Facts₀.reducesTo_S2048x8_S2048_d1 Facts₀.h_S_ Facts₀.bcast_S_S2048 Facts₀.reducesTo_S2048_S_d0
          (grouped (fromX (cloud x0) (cloud x1))) (grouped (fromY (cloud x0) (cloud x1))) := by
  rw [← near_rows, ← near_cols]
  rfl

end Cert.ReferenceIdeal.RefValue

end
-- ==== Proof.lean ====
/-
  The certificate of the Chamfer-loss kernel against its reference, over the extended reals.

  Both programs flatten the two arguments to clouds X and Y of 16384 points in 3-space. The reference forms the whole
  table of distances √ max(‖x‖² + ‖y‖² − 2 x·y, 0), takes its least value along each row and along each column, lays
  each list out in 2048 groups of 8 and averages, and adds the two averages. The kernel never forms the table: a
  row-minimum call visits it tile by tile (1024 × 1024), keeping for each row the least value seen so far, and is run
  twice, on (X, Y) and on (Y, X). A least value over consecutive stretches of a row is the least value over the row,
  and the distance is symmetric in its two points, so the second call's rows are the table's columns; the averaging
  is the same on both sides. Nothing here needs the inputs finite: only commutativity and associativity of sums,
  products and minima of extended reals are used.

  The three programs run to the end from any memory and leave their arguments unchanged; the idealization rewrote
  nothing.
-/
import proofs.«111008_j70153995813078_1_alg».proof.Defs
import proofs.«111008_j70153995813078_1_alg».proof.Proof.Gen.Kernel
import proofs.«111008_j70153995813078_1_alg».proof.Proof.Gen.KernelIdeal
import proofs.«111008_j70153995813078_1_alg».proof.Proof.Gen.ReferenceIdeal
import proofs.«111008_j70153995813078_1_alg».proof.Proof.Gen.Pre_finite_inputs
import proofs.«111008_j70153995813078_1_alg».proof.Proof.BitsMain
import proofs.«111008_j70153995813078_1_alg».proof.Proof.IdealValue
import proofs.«111008_j70153995813078_1_alg».proof.Proof.RefSide
import Idealize.ShloMosaic.Adequacy
import Idealize.ShloMosaic.Init

noncomputable section

namespace Cert.Proof

open Idealize.ShloMosaic Idealize.SL.Sem Cert.Nearest

/-- The printed kernel program runs to the end and leaves both arguments as launched. -/
theorem frame_kernel : Cert.frame_Kernel (hKernel := Cert.Kernel.Gen.facts) (hPre_finite_inputs := Cert.Pre_finite_inputs.Gen.facts) :=
  fun m ρ _ => Cert.Kernel.Rows.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Rows.frame (F := Ideal) m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the loss of the two directions' nearest distances of the same two clouds. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Rows.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq _ _).trans ?_
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
